-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384 : S_.BroadcastsInDim S16384 (![] : Fin 0 → Fin S16384.rank)
  reducesTo_S16384_S_d0 : S16384.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S16384 .f32) (main_arg3 : FVec F S64x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S16384x1 : Shape := ⟨2, ![16384, 1]⟩
abbrev S4096x64 : Shape := ⟨2, ![4096, 64]⟩
abbrev S1024x2048 : Shape := ⟨2, ![1024, 2048]⟩
abbrev S2048x64 : Shape := ⟨2, ![2048, 64]⟩
abbrev S1024x1 : Shape := ⟨2, ![1024, 1]⟩
abbrev S1024x64 : Shape := ⟨2, ![1024, 64]⟩

abbrev nBuf : Space → Nat
  | .hbm => 7
  | .vmem => 16
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S16384, .f32⟩
  | .hbm, ⟨3, _⟩ => ⟨S64x64, .f32⟩
  | .hbm, ⟨4, _⟩ => ⟨S16384x1, .f32⟩
  | .hbm, ⟨5, _⟩ => ⟨S16384x64, .bf16⟩
  | .hbm, ⟨6, _⟩ => ⟨S16384x64, .f32⟩
  | .local _ .vmem, ⟨0, _⟩ => ⟨S4096x64, .f32⟩
  | .local _ .vmem, ⟨1, _⟩ => ⟨S4096x64, .f32⟩
  | .local _ .vmem, ⟨2, _⟩ => ⟨S64x64, .f32⟩
  | .local _ .vmem, ⟨3, _⟩ => ⟨S4096x64, .bf16⟩
  | .local _ .vmem, ⟨4, _⟩ => ⟨S4096x64, .bf16⟩
  | .local _ .vmem, ⟨5, _⟩ => ⟨S1024x2048, .f32⟩
  | .local _ .vmem, ⟨6, _⟩ => ⟨S1024x2048, .f32⟩
  | .local _ .vmem, ⟨7, _⟩ => ⟨S2048x64, .bf16⟩
  | .local _ .vmem, ⟨8, _⟩ => ⟨S2048x64, .bf16⟩
  | .local _ .vmem, ⟨9, _⟩ => ⟨S1024x1, .f32⟩
  | .local _ .vmem, ⟨10, _⟩ => ⟨S1024x1, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S16384_S16384x1 : S16384.ShapeCasts S16384x1
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S4096x64_S4096x64_0_0 : (Rect.unit (s := S4096x64) ![0, 0] S4096x64.size inb_S4096x64_S4096x64_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  dot_S4096x64_S64x64_S4096x64_1_0_0_1_n_n_wf : DotDims.WF S4096x64 S64x64 S4096x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S16384x64.size a
  hwx0_0 : ∀ i : grid0.Coords, EltTy.bits .f32 = 32 ∨ (Rect.block (s := S16384x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S16384x64.size a
  hwx0_2 : ∀ i : grid0.Coords, EltTy.bits .bf16 = 32 ∨ (Rect.block (s := S16384x64) S4096x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .bf16 = 32 ∨ (Rect.block (s := S16384x64) S2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .f32 = 32 ∨ (Rect.block (s := S16384x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S16384x64.size a
  hwx1_4 : ∀ i : grid1.Coords, EltTy.bits .f32 = 32 ∨ (Rect.block (s := S16384x64) S1024x64.size (cc1_transform_4 i) (hinb1_4 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S16384x1 : Shape := ⟨2, ![16384, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S16384, .f32⟩
  | .hbm, ⟨3, _⟩ => ⟨S64x64, .f32⟩
  | .hbm, ⟨4, _⟩ => ⟨S16384x64, .f32⟩
  | .hbm, ⟨5, _⟩ => ⟨S16384x64, .f32⟩
  | .hbm, ⟨6, _⟩ => ⟨S16384x1, .f32⟩
  | .hbm, ⟨7, _⟩ => ⟨S_, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | .hbm, ⟨18, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S_S16384 : S_.BroadcastsInDim S16384 (![] : Fin 0 → Fin S16384.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.AggData.lean ====
/-
  The proof data of the two pipelines of the graph-aggregation program, at a parameter `V`: the contents of the
  TensorCore's buffers when a region is entered.

  Region 0 (grid of 4 row blocks of 4096 rows) computes XW = X · W block by block: at point `t` the output block is the
  product of X's rows 4096·t … 4096·t+4095 with the whole 64×64 matrix W.

  Region 1 (grid 16 × 8: row block `i` of 1024 rows, column block `k` of 2048 columns of the adjacency matrix) keeps a
  running sum in a scratch buffer: at `k = 0` the sum restarts from zero, at every point the product of the
  1024×2048 block of A with the matching 2048×64 block of XW is added, and at `k = 7` the finished sum S is
  combined row by row, `w · max(S, 0) + (1 − w) · X`, into the output block.
-/
import proofs.«163471_j56341380989595_1_alg».proof.Proof.Gen.KernelIdeal.Launch
import proofs.«163471_j56341380989595_1_alg».proof.Proof.Gen.KernelIdeal.Skeleton
import proofs.«163471_j56341380989595_1_alg».proof.Proof.Gen.KernelIdeal.Points
import Idealize.ShloMosaic.Lib.Pipeline.FrameBody
import Idealize.ShloMosaic.Lib.Pipeline.Value
import Idealize.ShloMosaic.Lib.Pipeline.Frame
import Idealize.ShloMosaic.Lib.Tactic
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: XW = X · W, one block of 4096 rows per point -/

/-- Window `w`'s block of region 0 at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of XW that point `t` produces: the rows of X in its block times the whole of W. -/
def xwBlock (c : Dev nD) (t : Fin cfg0.N) : Vec F S4096x64 .bf16 :=
  k0_pay1 (blk0 V c 0 t) (blk0 V c 1 t)

/-- Region 0's proof data: the inputs' buffers keep their blocks, the output's holds the product block; the body
    uses nothing but its windows, so the invariant is the untouched scoped rest and the generator register. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => xwBlock V c t
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = xwBlock V c t := by dsimp only [dat0]

/-! ## Region 1: the running sum over column blocks and the row-wise combination -/

/-- Window `w`'s block of region 1 at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer the kernel keeps its running sum in. -/
abbrev accRef : Memref sig .tc .vmem S1024x64 .f32 := Memref.whole cc1_scratch0

/-- THE RUNNING SUM after point `n`: at a point whose column block is the first (`n` a multiple of 8) the block
    product added to zero, at any other point the block product added to what the point before left. -/
def accAt (c : Dev nD) : (n : ℕ) → n < cfg1.N → Vec F S1024x64 .f32
  | 0, hn => k1_pay2 (blk1 V c 0 ⟨0, hn⟩) (k1_pay1 (F := F)) (blk1 V c 1 ⟨0, hn⟩)
  | n + 1, hn =>
    if (n + 1) % 8 = 0 then k1_pay2 (blk1 V c 0 ⟨n + 1, hn⟩) (k1_pay1 (F := F)) (blk1 V c 1 ⟨n + 1, hn⟩)
    else k1_pay2 (blk1 V c 0 ⟨n + 1, hn⟩) (accAt c n (Nat.lt_of_succ_lt hn)) (blk1 V c 1 ⟨n + 1, hn⟩)

theorem accAt_first (c : Dev nD) (t : Fin cfg1.N) (h : t.val % 8 = 0) :
    accAt V c t.val t.isLt = k1_pay2 (blk1 V c 0 t) (k1_pay1 (F := F)) (blk1 V c 1 t) := by
  obtain ⟨n, hn⟩ := t
  cases n with
  | zero => rfl
  | succ n => exact (if_pos h)

theorem accAt_later (c : Dev nD) (t : Fin cfg1.N) (h : ¬ t.val % 8 = 0) :
    accAt V c t.val t.isLt = k1_pay2 (blk1 V c 0 t) (accAt V c (t.val - 1) (Nat.lt_of_le_of_lt (Nat.sub_le _ _) t.isLt)) (blk1 V c 1 t) := by
  obtain ⟨n, hn⟩ := t
  cases n with
  | zero => exact absurd (Nat.zero_mod _) h
  | succ n => exact (if_neg h)

/-- The output block a point at the last column block stores: the finished sum combined with `w` and X row by row. -/
def outBlock (c : Dev nD) (t : Fin cfg1.N) : Vec F S1024x64 .f32 :=
  k1_pay3 (accAt V c t.val t.isLt) (blk1 V c 2 t) (blk1 V c 3 t)

/-- The core's scoped buffers that region 1 does not stage: region 0's five staging buffers, each whole at some
    contents, and the scratch buffer in the state `S`. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- Region 1's invariant before position `n`: before the first point the scratch holds anything; afterwards it holds
    the running sum the point before left. The other scoped buffers and the generator register ride along. -/
def PhiAcc (c : Dev nD) : (n : ℕ) → n ≤ cfg1.N → sProp 𝕄
  | 0, _ => Pipeline.ΦA spec1 c
  | n + 1, hn => iprop(scopedWith (F := F) c (owns (c : Thread nD τ) accRef fullShare (accAt V c n hn)) ∗ (∃ r, prngReg c r))

/-- Region 1's proof data: the inputs' buffers keep their blocks; the output's buffer holds the combined block (stated
    at every point, consulted only where the block is stored and written back: the last column block). -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outBlock V c t
  Φ t := PhiAcc V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = outBlock V c t := by dsimp only [dat1]

end Cert.KernelIdeal.Agg

end
-- ==== Proof.AggBody.lean ====
/-
  Region 1's body at a grid point, by the position `k` of the point in its row block's run of 8 column blocks.
  At `k = 0` the scratch is first set to zero; at every point the product of the adjacency block with the XW block is
  added to the scratch; at `k = 7` the scratch, now the full row-block sum S, is read once more and
  `w · max(S, 0) + (1 − w) · X` is stored over the whole output buffer. At the other points the output buffer is not
  touched.
-/
import proofs.«163471_j56341380989595_1_alg».proof.Proof.Gen.KernelIdeal.Launch
import proofs.«163471_j56341380989595_1_alg».proof.Proof.Gen.KernelIdeal.Skeleton
import proofs.«163471_j56341380989595_1_alg».proof.Proof.Gen.KernelIdeal.Points
import proofs.«163471_j56341380989595_1_alg».proof.Proof.AggData
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, and where they hold on the grid -/

/-- "This is the first column block": the condition under which the body zeroes the scratch. -/
abbrev isFirst (i : grid1.Coords) : Prop := (Scalar.cmpi .ne (Scalar.extui (Scalar.cmpi .eq (BitVec.ofNat 32 (i 1).val) 0#32)) 0#32) = 1#1
/-- "This is the last column block": the condition under which the body stores the output block. -/
abbrev isLast (i : grid1.Coords) : Prop := k1_cond2 i = 1#1

theorem isFirst_iff : ∀ t : Fin cfg1.N, isFirst (grid1.coords t) ↔ t.val % 8 = 0 :=
  (by decide +kernel : ∀ t : Fin grid1.N, isFirst (grid1.coords t) ↔ t.val % 8 = 0)
theorem isLast_iff : ∀ t : Fin cfg1.N, isLast (grid1.coords t) ↔ t.val % 8 = 7 :=
  (by decide +kernel : ∀ t : Fin grid1.N, isLast (grid1.coords t) ↔ t.val % 8 = 7)

/-- The output window is idle exactly off the last column block, and is not written back there. -/
theorem out_idle : ∀ t : Fin cfg1.N, ¬ t.val % 8 = 7 → cfg1.idle 4 (grid1.coords t) = true :=
  (by decide +kernel : ∀ t : Fin grid1.N, ¬ t.val % 8 = 7 → cfg1.idle 4 (grid1.coords t) = true)
theorem out_live : ∀ t : Fin cfg1.N, t.val % 8 = 7 → cfg1.idle 4 (grid1.coords t) = false :=
  (by decide +kernel : ∀ t : Fin grid1.N, t.val % 8 = 7 → cfg1.idle 4 (grid1.coords t) = false)
theorem out_noflush (t : Fin cfg1.N) (h : ¬ t.val % 8 = 7) : (cfg1.win 4).flush t = false := by
  cases hf : (cfg1.win 4).flush t
  · rfl
  · exact absurd ((flush1_4 t).mp hf) h

theorem zero2 : (![0, 0] : Fin 2 → Nat) = fun _ => 0 := funext fun a => by
  match a with
  | ⟨0, _⟩ => rfl
  | ⟨1, _⟩ => rfl

/-- The rectangle of zero offsets and the buffer's own sizes holds every index of the buffer. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A store over the whole 1024×64 buffer covers it, whatever was stored before. -/
theorem acc_store_covers (p : Vec F S1024x64 .f32) (L : List (View.Piece (Elt F) S1024x64 .f32)) (y : S1024x64.Idx) :
    ∃ pc ∈ ((⟨Rect.unit (s := S1024x64) ![0, 0] S1024x64.size inb_S1024x64_S1024x64_0_0, p⟩ : View.Piece (Elt F) S1024x64 .f32) :: L), y ∈ pc.1.set :=
  ⟨_, List.mem_cons_self, mem_unit_zero zero2 inb_S1024x64_S1024x64_0_0 y⟩

/-! ## The body's triple, case by case -/

set_option maxHeartbeats 2000000 in
/-- First column block: the scratch, at anything, is zeroed and then receives the first block product. -/
theorem sound_agg_first (c : Dev nD) (E : Set ℕ) (i : grid1.Coords) (hf : isFirst i) (hl : ¬ isLast i)
    (a2 : Memref sig .tc .vmem S1024x2048 .f32) (h2 : a2.IsWhole) (a3 : Memref sig .tc .vmem S2048x64 .bf16) (h3 : a3.IsWhole)
    (a4 : Memref sig .tc .vmem S1024x1 .f32) (h4 : a4.IsWhole) (a5 : Memref sig .tc .vmem S1024x64 .f32) (h5 : a5.IsWhole)
    (a6 : Memref sig .tc .vmem S1024x64 .f32) (h6 : a6.IsWhole) (a7 : Memref sig .tc .vmem S1024x64 .f32) (h7 : a7.IsWhole)
    (A : Vec F S1024x2048 .f32) (B : Vec F S2048x64 .bf16) (K : PUnit → sProp 𝕄) :
    iprop(owns (c : Thread nD τ) a2 fullShare A ∗ owns (c : Thread nD τ) a3 fullShare B ∗ (∃ d, owns (c : Thread nD τ) a7 fullShare d)
        ∗ (iprop(owns (c : Thread nD τ) a2 fullShare A ∗ owns (c : Thread nD τ) a3 fullShare B
            ∗ owns (c : Thread nD τ) a7 fullShare (k1_pay2 A (k1_pay1 (F := F)) B)) -∗ K ⟨⟩))
      ⊢ wp frame (wpE (defs₀ (F := F)) Variants.none c none) E (cc1__agg_kernel i a2 h2 a3 h3 a4 h4 a5 h5 a6 h6 a7 h7) K := by
  simp only [cc1__agg_kernel_eq_skeleton]; unfold cc1__agg_kernel_skel
  unfold owns
  iintro ⟨⟨%f2, %hf2, H2⟩, ⟨%f3, %hf3, H3⟩, ⟨%d7, %f7, -, H7⟩, Hk⟩
  subst hf2; subst hf3
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H7
  ipureintro
  sl_unfold_words
  rw [View.read_writes_eq_canon _ _ _ (acc_store_covers _ _), View.canon_cons_unit_zero zero2]
  simp only [View.readAt_eq_ld, View.ld_unit_zero (S := S1024x2048) zero2, View.ld_unit_zero (S := S2048x64) zero2]
  rw [View.readCov_unit_zero (S := S1024x64) a7.view zero2 inb_S1024x64_S1024x64_0_0]

set_option maxHeartbeats 2000000 in
/-- A column block that is neither first nor last: the block product is added to what the scratch held. -/
theorem sound_agg_mid (c : Dev nD) (E : Set ℕ) (i : grid1.Coords) (hf : ¬ isFirst i) (hl : ¬ isLast i)
    (a2 : Memref sig .tc .vmem S1024x2048 .f32) (h2 : a2.IsWhole) (a3 : Memref sig .tc .vmem S2048x64 .bf16) (h3 : a3.IsWhole)
    (a4 : Memref sig .tc .vmem S1024x1 .f32) (h4 : a4.IsWhole) (a5 : Memref sig .tc .vmem S1024x64 .f32) (h5 : a5.IsWhole)
    (a6 : Memref sig .tc .vmem S1024x64 .f32) (h6 : a6.IsWhole) (a7 : Memref sig .tc .vmem S1024x64 .f32) (h7 : a7.IsWhole)
    (A : Vec F S1024x2048 .f32) (B : Vec F S2048x64 .bf16) (S : Vec F S1024x64 .f32) (K : PUnit → sProp 𝕄) :
    iprop(owns (c : Thread nD τ) a2 fullShare A ∗ owns (c : Thread nD τ) a3 fullShare B ∗ owns (c : Thread nD τ) a7 fullShare S
        ∗ (iprop(owns (c : Thread nD τ) a2 fullShare A ∗ owns (c : Thread nD τ) a3 fullShare B
            ∗ owns (c : Thread nD τ) a7 fullShare (k1_pay2 A S B)) -∗ K ⟨⟩))
      ⊢ wp frame (wpE (defs₀ (F := F)) Variants.none c none) E (cc1__agg_kernel i a2 h2 a3 h3 a4 h4 a5 h5 a6 h6 a7 h7) K := by
  simp only [cc1__agg_kernel_eq_skeleton]; unfold cc1__agg_kernel_skel
  unfold owns
  iintro ⟨⟨%f2, %hf2, H2⟩, ⟨%f3, %hf3, H3⟩, ⟨%f7, %hf7, H7⟩, Hk⟩
  subst hf2; subst hf3; subst hf7
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H7
  ipureintro
  rw [View.read_writes_eq_canon _ _ _ (acc_store_covers _ _), View.canon_unit_zero zero2]
  simp only [View.readAt_eq_ld, View.ld_unit_zero (S := S1024x2048) zero2, View.ld_unit_zero (S := S2048x64) zero2,
    View.ld_unit_zero (S := S1024x64) zero2]

set_option maxHeartbeats 2000000 in
/-- Last column block: the block product is added, and the finished sum is combined with `w` and X into the output
    buffer, which held anything. -/
theorem sound_agg_last (c : Dev nD) (E : Set ℕ) (i : grid1.Coords) (hf : ¬ isFirst i) (hl : isLast i)
    (a2 : Memref sig .tc .vmem S1024x2048 .f32) (h2 : a2.IsWhole) (a3 : Memref sig .tc .vmem S2048x64 .bf16) (h3 : a3.IsWhole)
    (a4 : Memref sig .tc .vmem S1024x1 .f32) (h4 : a4.IsWhole) (a5 : Memref sig .tc .vmem S1024x64 .f32) (h5 : a5.IsWhole)
    (a6 : Memref sig .tc .vmem S1024x64 .f32) (h6 : a6.IsWhole) (a7 : Memref sig .tc .vmem S1024x64 .f32) (h7 : a7.IsWhole)
    (A : Vec F S1024x2048 .f32) (B : Vec F S2048x64 .bf16) (wv : Vec F S1024x1 .f32) (X : Vec F S1024x64 .f32)
    (S : Vec F S1024x64 .f32) (K : PUnit → sProp 𝕄) :
    iprop(owns (c : Thread nD τ) a2 fullShare A ∗ owns (c : Thread nD τ) a3 fullShare B ∗ owns (c : Thread nD τ) a4 fullShare wv
        ∗ owns (c : Thread nD τ) a5 fullShare X ∗ (∃ d, owns (c : Thread nD τ) a6 fullShare d) ∗ owns (c : Thread nD τ) a7 fullShare S
        ∗ (iprop(owns (c : Thread nD τ) a2 fullShare A ∗ owns (c : Thread nD τ) a3 fullShare B ∗ owns (c : Thread nD τ) a4 fullShare wv
            ∗ owns (c : Thread nD τ) a5 fullShare X ∗ owns (c : Thread nD τ) a6 fullShare (k1_pay3 (k1_pay2 A S B) wv X)
            ∗ owns (c : Thread nD τ) a7 fullShare (k1_pay2 A S B)) -∗ K ⟨⟩))
      ⊢ wp frame (wpE (defs₀ (F := F)) Variants.none c none) E (cc1__agg_kernel i a2 h2 a3 h3 a4 h4 a5 h5 a6 h6 a7 h7) K := by
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf2; subst hf3; subst hf4; subst hf5; subst hf7
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (acc_store_covers _ _), View.canon_unit_zero zero2]
    simp only [View.readAt_eq_ld, View.ld_unit_zero (S := S1024x2048) zero2, View.ld_unit_zero (S := S2048x64) zero2,
      View.ld_unit_zero (S := S1024x64) zero2, View.ld_unit_zero (S := S1024x1) zero2]
    rw [View.readCov_unit_zero (S := S1024x64) a7.view zero2 inb_S1024x64_S1024x64_0_0]
  iexists _; isplitr
  swap; · iexact H7
  ipureintro
  sl_unfold_words
  rw [View.read_writes_eq_canon _ _ _ (acc_store_covers _ _), View.canon_unit_zero zero2]
  simp only [View.readAt_eq_ld, View.ld_unit_zero (S := S1024x2048) zero2, View.ld_unit_zero (S := S2048x64) zero2,
    View.ld_unit_zero (S := S1024x64) zero2]

end Cert.KernelIdeal.Agg

end
-- ==== Proof.AggOblig.lean ====
/-
  Region 1's body obligation. At every grid point the four input buffers hold their blocks (two of them are fetched only
  at a row block's first column block and stay in place along the row block). The scratch holds the running sum the point
  before left (anything, at the very first point), and ends holding this point's running sum. The output buffer is handed
  back untouched except at a row block's last column block, where it receives the combined block.
-/
import proofs.«163471_j56341380989595_1_alg».proof.Proof.Gen.KernelIdeal.Launch
import proofs.«163471_j56341380989595_1_alg».proof.Proof.Gen.KernelIdeal.Skeleton
import proofs.«163471_j56341380989595_1_alg».proof.Proof.Gen.KernelIdeal.Points
import proofs.«163471_j56341380989595_1_alg».proof.Proof.AggBody
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks at every point -/

theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
/-- The column of `w` is fetched once per row block; along the row block its block index does not move. -/
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)
/-- Likewise the block of X. -/
theorem dat1_before3 (c : Dev nD) (t : Fin cfg1.N) (d) : (dat1 V c).before 3 t d = blk1 V c 3 t :=
  ((dat1 V c).before_in_eq_fetched 3 rfl (fun _ => rfl) (fun _ _ _ => rfl)
    (fun t => by rw [dat1_after3]; unfold Dat.blockOf blk1; rw [dat1_A]; try rfl) t d).trans
    (by unfold Dat.fetched Dat.blockOf blk1; rw [dat1_A]; try rfl)

/-! ## The invariant, point by point -/

/-- What the pipeline hands a region's body beside its windows — the scoped buffers it does not stage and the generator
    register — with the scratch buffer singled out. -/
theorem PhiA1_eq (c : Dev nD) :
    (Pipeline.ΦA spec1 c : sProp 𝕄)
      = iprop(scopedWith (F := F) c iprop(∃ d, owns (c : Thread nD τ) accRef fullShare d) ∗ (∃ r, prngReg c r)) := by
  unfold Pipeline.ΦA scopedWith; rw [scopedRest1_eq]; simp only [accRef, owns_whole]; rfl

theorem scopedWith_mono (c : Dev nD) {S S' : sProp 𝕄} (h : S ⊢ S') : scopedWith (F := F) c S ⊢ scopedWith (F := F) c S' := by
  unfold scopedWith
  exact sep_mono .rfl (sep_mono .rfl (sep_mono .rfl (sep_mono .rfl (sep_mono .rfl h))))

theorem PhiAcc_zero (c : Dev nD) (n : ℕ) (h : n ≤ cfg1.N) (hz : n = 0) : PhiAcc V c n h = Pipeline.ΦA spec1 c := by
  subst hz; rfl

theorem PhiAcc_succ (c : Dev nD) (n : ℕ) (hn : n < cfg1.N) :
    PhiAcc V c (n + 1) hn = iprop(scopedWith (F := F) c (owns (c : Thread nD τ) accRef fullShare (accAt V c n hn)) ∗ (∃ r, prngReg c r)) := rfl

theorem PhiAcc_pos (c : Dev nD) (n : ℕ) (h : n ≤ cfg1.N) (hz : n ≠ 0) :
    PhiAcc V c n h = iprop(scopedWith (F := F) c (owns (c : Thread nD τ) accRef fullShare (accAt V c (n - 1) (by omega))) ∗ (∃ r, prngReg c r)) := by
  cases n with
  | zero => exact absurd rfl hz
  | succ n => rfl

theorem dat1_Phi_castSucc (c : Dev nD) (t : Fin cfg1.N) :
    (dat1 V c).Φ t.castSucc = PhiAcc V c t.val (Nat.le_of_lt t.isLt) := by
  dsimp only [dat1]; simp only [Fin.coe_castSucc]

/-- Before any point the scratch can be taken at SOME contents (named ones are forgotten). -/
theorem PhiAcc_some (c : Dev nD) (n : ℕ) (h : n ≤ cfg1.N) :
    PhiAcc V c n h ⊢ iprop(scopedWith (F := F) c iprop(∃ d, owns (c : Thread nD τ) accRef fullShare d) ∗ (∃ r, prngReg c r)) := by
  by_cases hz : n = 0
  · rw [PhiAcc_zero V c n h hz, PhiA1_eq]
  · rw [PhiAcc_pos V c n h hz]
    exact sep_mono (scopedWith_mono c (by iintro H; iexists _; iexact H)) .rfl

/-! ## The body at a generic point -/

set_option maxHeartbeats 4000000 in
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ (dat1 V c).leavesExact 4 t)) := by
  simp only [dat1_before0, dat1_before1, dat1_before2, dat1_before3]
  rw [show (dat1 V c).owesAt () t.succ = (dat1 V c).owesAt () t.castSucc from rfl,
    show (dat1 V c).Φ t.succ = PhiAcc V c (t.val + 1) t.isLt from rfl, PhiAcc_succ,
    dat1_after0, dat1_after1, dat1_after2, dat1_after3, dat1_Phi_castSucc]
  unfold bodyAt1
  by_cases h0 : t.val % 8 = 0
  · -- first column block: whatever the scratch held is overwritten
    have h7 : ¬ t.val % 8 = 7 := by omega
    rw [Dat.leavesExact_idle (dat1 V c) 4 t (out_idle t h7) (out_noflush t h7), accAt_first V c t h0]
    refine (sep_mono (PhiAcc_some V c _ _) .rfl).trans ?_
    unfold scopedWith
    iintro ⟨⟨⟨Ha, Hb, Hc, Hd, He, HS⟩, Hg⟩, Ho, ⟨%d0, H0⟩, ⟨%d1, H1⟩, ⟨%d2, H2⟩, ⟨%d3, H3⟩, H4⟩
    iapply (sound_agg_first c Set.univ (grid1.coords t) ((isFirst_iff t).mpr h0) (fun h => h7 ((isLast_iff t).mp h))
      _ _ _ _ _ _ _ _ _ _ _ _ (blk1 V c 0 t) (blk1 V c 1 t) _)
    isplitl [H0]; · iexact H0
    isplitl [H1]; · iexact H1
    isplitl [HS]; · iexact HS
    iintro ⟨H0, H1, HS⟩
    isplitl [Ha Hb Hc Hd He HS Hg]
    · isplitr [Hg]
      · isplitl [Ha]; · iexact Ha
        isplitl [Hb]; · iexact Hb
        isplitl [Hc]; · iexact Hc
        isplitl [Hd]; · iexact Hd
        isplitl [He]; · iexact He
        iexact HS
      · iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [PhiAcc_pos V c _ _ hz, accAt_later V c t h0]
    unfold scopedWith
    by_cases h7 : t.val % 8 = 7
    · -- last column block: the finished sum is combined into the output buffer
      rw [show (dat1 V c).leavesExact 4 t = owns (c : Thread nD τ) (st1_4 t) fullShare ((dat1 V c).after 4 t) from by
        unfold Dat.leavesExact; rw [out_live t h7], dat1_after4]
      unfold outBlock
      rw [accAt_later V c t h0]
      iintro ⟨⟨⟨Ha, Hb, Hc, Hd, He, HS⟩, Hg⟩, Ho, ⟨%d0, H0⟩, ⟨%d1, H1⟩, ⟨%d2, H2⟩, ⟨%d3, H3⟩, ⟨%d4, H4⟩⟩
      iapply (sound_agg_last c Set.univ (grid1.coords t) (fun h => h0 ((isFirst_iff t).mp h)) ((isLast_iff t).mpr h7)
        _ _ _ _ _ _ _ _ _ _ _ _ (blk1 V c 0 t) (blk1 V c 1 t) (blk1 V c 2 t) (blk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        · iexact Hg
      isplitl [Ho]; · iexact Ho
      isplitl [H0]; · iexact H0
      isplitl [H1]; · iexact H1
      isplitl [H2]; · iexact H2
      isplitl [H3]; · iexact H3
      iexact H4
    · -- a column block in between: one more product is added
      rw [Dat.leavesExact_idle (dat1 V c) 4 t (out_idle t h7) (out_noflush t h7)]
      iintro ⟨⟨⟨Ha, Hb, Hc, Hd, He, HS⟩, Hg⟩, Ho, ⟨%d0, H0⟩, ⟨%d1, H1⟩, ⟨%d2, H2⟩, ⟨%d3, H3⟩, H4⟩
      iapply (sound_agg_mid c Set.univ (grid1.coords t) (fun h => h0 ((isFirst_iff t).mp h)) (fun h => h7 ((isLast_iff t).mp h))
        _ _ _ _ _ _ _ _ _ _ _ _ (blk1 V c 0 t) (blk1 V c 1 t) _ _)
      isplitl [H0]; · iexact H0
      isplitl [H1]; · iexact H1
      isplitl [HS]; · iexact HS
      iintro ⟨H0, H1, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        · iexact Hg
      isplitl [Ho]; · iexact Ho
      isplitl [H0]; · iexact H0
      isplitl [H1]; · iexact H1
      isplitl [H2]; · iexact H2
      isplitl [H3]; · iexact H3
      iexact H4

/-- The library's body obligation for region 1, at every point. -/
theorem body_obligation1 (c : Dev nD) :
    BodyObligation (dat1 (F := F) V c) (defs₀ (F := F)) Variants.none () Set.univ := fun t => by
  rw [bigSep_W1, bigSep_W1]
  exact sound_body1 V c t

/-- What the pipeline hands the region is the invariant before the first point. -/
theorem dat1_hin (c : Dev nD) : Pipeline.ΦA spec1 c ⊢ (dat1 V c).Φ 0 := by
  rw [show (dat1 V c).Φ 0 = PhiAcc V c 0 (Nat.zero_le _) from rfl, PhiAcc_zero V c 0 _ rfl]

/-- After the last point the running sum's name is forgotten and the scoped rest is handed back. -/
theorem dat1_hout (c : Dev nD) : (dat1 V c).Φ (Fin.last cfg1.N) ⊢ Pipeline.ΦA spec1 c := by
  rw [show (dat1 V c).Φ (Fin.last cfg1.N) = PhiAcc V c (Fin.last cfg1.N).val (Nat.le_of_lt_succ (Fin.last cfg1.N).isLt) from rfl, PhiA1_eq]
  exact PhiAcc_some V c _ _

end Cert.KernelIdeal.Agg

end
-- ==== Proof.XwBody.lean ====
/-
  Region 0's body at a grid point: it loads the block of X and the matrix W, multiplies them, and stores the product
  over the whole output buffer. Whatever the output buffer held before is overwritten, so the buffer ends at the product
  block; the two input buffers are only read.
-/
import proofs.«163471_j56341380989595_1_alg».proof.Proof.Gen.KernelIdeal.Launch
import proofs.«163471_j56341380989595_1_alg».proof.Proof.Gen.KernelIdeal.Skeleton
import proofs.«163471_j56341380989595_1_alg».proof.Proof.Gen.KernelIdeal.Points
import proofs.«163471_j56341380989595_1_alg».proof.Proof.AggData
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's one store covers its buffer: the rectangle is the whole 4096×64 block. -/
theorem xw_store_covers (p : Vec F S4096x64 .bf16) (y : S4096x64.Idx) :
    ∃ pc ∈ ([⟨Rect.unit (s := S4096x64) ![0, 0] S4096x64.size inb_S4096x64_S4096x64_0_0, p⟩] : List (View.Piece (Elt F) S4096x64 .bf16)), y ∈ pc.1.set :=
  View.cover_of_tiled _ S4096x64.size (by rfl) y

set_option maxHeartbeats 1000000 in
/-- The product kernel on whole buffers: the inputs at `x` and `w`, the output at anything, ends with the inputs as
    they were and the output at the product payload of `x` and `w`. -/
theorem sound_xw (c : Dev nD) (E : Set ℕ) (i : grid0.Coords)
    (a1 : Memref sig .tc .vmem S4096x64 .f32) (h1 : a1.IsWhole) (a2 : Memref sig .tc .vmem S64x64 .f32) (h2 : a2.IsWhole)
    (a3 : Memref sig .tc .vmem S4096x64 .bf16) (h3 : a3.IsWhole)
    (x : Vec F S4096x64 .f32) (w : Vec F S64x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k0_pay1 x w)) -∗ K ⟨⟩))
      ⊢ wp frame (wpE (defs₀ (F := F)) Variants.none c none) E (cc0__xw_kernel i a1 h1 a2 h2 a3 h3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by
    match a with
    | ⟨0, _⟩ => rfl
    | ⟨1, _⟩ => rfl
  rw [View.read_writes_eq_canon _ _ _ (xw_store_covers _), View.canon_unit_zero hz]
  simp only [View.readAt_eq_ld, View.ld_unit_zero (S := S4096x64) hz, View.ld_unit_zero (S := S64x64) hz]

/-! ## The body obligation -/

/-- The block of X sits in its staging buffer at every point: the window is fetched at each of them. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)

/-- W sits in its staging buffer at every point: fetched once, at the first point, its block index never moves and
    the body leaves it in place. -/
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)

/-- At every point the body takes the two input buffers at their blocks and the output buffer at anything, and leaves
    the output buffer at the product block; the invariant and what the core owes pass through untouched. -/
theorem body_obligation0 (c : Dev nD) :
    BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)))
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  unfold bodyAt0 xwBlock
  iintro ⟨HΦ, Ho, ⟨%d0, H0⟩, ⟨%d1, H1⟩, ⟨%d2, H2⟩⟩
  iapply (sound_xw c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Agg

end
-- ==== Proof.AggFlow.lean ====
/-
  How the program's buffers flow from launch to return. The one host operation reshapes `w` into a column; region 0
  then finds X and W as launched and leaves XW in a buffer of its own; region 1 finds that buffer, the adjacency matrix,
  the column of `w` and X, and leaves the result in the output buffer. Each region's proof data is taken at the
  contents the region is entered with.
-/
import proofs.«163471_j56341380989595_1_alg».proof.Proof.Gen.KernelIdeal.Launch
import proofs.«163471_j56341380989595_1_alg».proof.Proof.Gen.KernelIdeal.Skeleton
import proofs.«163471_j56341380989595_1_alg».proof.Proof.Gen.KernelIdeal.Points
import proofs.«163471_j56341380989595_1_alg».proof.Proof.AggData
import proofs.«163471_j56341380989595_1_alg».proof.Proof.Gen.KernelIdeal.Regions
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents region 0 is entered with: the launch memory after the reshape of `w`. -/
abbrev entry0 (c : Dev nD) (b : Ref sig .tc) : Buf (Elt F) ((c : Thread nD τ).loc b) := Gen.V1 m c b

/-- The array XW as region 0 leaves it: the entry contents overwritten by every point's block. -/
def xwArr (c : Dev nD) : Buf (Elt F) ((c : Thread nD τ).loc main_v1) := (dat0 (entry0 m) c).arrAt 2 cfg0.N

/-- What the regions leave in the buffers they write: XW after region 0; the result after region 1 (below). -/
def outs0 : Gen.Outs (F := F) := fun _ r c =>
  if h : r = main_v1 then h ▸ xwArr m c else Gen.V1 m c r

theorem outs0_xw (c : Dev nD) : outs0 m 2 main_v1 c = xwArr m c := by
  unfold outs0; rw [dif_pos rfl]

/-- The contents region 1 is entered with: region 0's, with XW in its buffer. -/
abbrev entry1 (c : Dev nD) (b : Ref sig .tc) : Buf (Elt F) ((c : Thread nD τ).loc b) := Gen.V2 m (outs0 m) c b

/-- The result array as region 1 leaves it. -/
def outArr (c : Dev nD) : Buf (Elt F) ((c : Thread nD τ).loc main_v2) := (dat1 (entry1 m) c).arrAt 4 cfg1.N

/-- What the regions leave in the buffers they write: XW after region 0, the result after region 1. -/
def outs : Gen.Outs (F := F) := fun _ r c =>
  if h : r = main_v1 then h ▸ xwArr m c else if h' : r = main_v2 then h' ▸ outArr m c else Gen.V1 m c r

theorem outs_xw (c : Dev nD) : outs m 2 main_v1 c = xwArr m c := by
  unfold outs; rw [dif_pos rfl]
theorem outs_out (c : Dev nD) : outs m 3 main_v2 c = outArr m c := by
  unfold outs; rw [dif_neg (by decide), dif_pos rfl]

/-- Both choices of `outs` put XW in its buffer after region 0, so region 1 is entered with the same contents. -/
theorem V2_outs (c : Dev nD) : Gen.V2 m (outs m) c = Gen.V2 m (outs0 m) c := by
  unfold Gen.V2; rw [outs_xw, outs0_xw]

/-- The proof data of the two pipelines, each at its region's entry contents. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

end Cert.KernelIdeal.Agg

end
-- ==== Proof.AggRun.lean ====
/-
  The whole program's run. Between two items of @main a core holds every unscoped buffer whole at known contents, its
  generator register at some state, and owes no other core anything. Each kernel region takes its arrays out of those
  buffers at the contents the proof data are stated at, runs its pipeline, and puts them back with its output array at
  what the write-backs leave; everything else is untouched. At the end the result buffer holds region 1's output
  array and the four arguments hold their launch contents.
-/
import proofs.«163471_j56341380989595_1_alg».proof.Proof.Gen.KernelIdeal.Launch
import proofs.«163471_j56341380989595_1_alg».proof.Proof.Gen.KernelIdeal.Skeleton
import proofs.«163471_j56341380989595_1_alg».proof.Proof.Gen.KernelIdeal.Points
import proofs.«163471_j56341380989595_1_alg».proof.Proof.AggOblig
import proofs.«163471_j56341380989595_1_alg».proof.Proof.XwBody
import proofs.«163471_j56341380989595_1_alg».proof.Proof.AggFlow
import Idealize.ShloMosaic.Lib.Pipeline.RegionsLoop
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core waits for another: no level is assigned to any pair. -/
abbrev noLev : GSem nD τ sig → Finset Unit := fun _ => ∅
abbrev lev0 : GSem nD τ sig → Unit → ℕ := fun _ _ => 0

/-- What a core holds beside its buffers between two items: its generator register at some state, nothing owed. -/
abbrev beside (c : Dev nD) : sProp 𝕄 :=
  iprop((∃ r, prngReg c r) ∗ ∃ W, owes (c : Thread nD τ) (0 : CellTallies nD τ sig Unit) W)

/-! ## What each region leaves in the buffers -/

theorem V2_at_xw (c : Dev nD) : Gen.V2 m (outs m) c main_v1 = xwArr m c := by
  unfold Gen.V2; rw [Function.update_self, outs_xw]

theorem V3_at_out (c : Dev nD) : Gen.V3 m (outs m) c main_v2 = outArr m c := by
  unfold Gen.V3; rw [Function.update_self, outs_out]

/-- After region 0 each of its arrays holds what the pipeline leaves: the two inputs their entry contents, the output XW. -/
theorem exit0_arr (c : Dev nD) (w : Fin cfg0.W) :
    (pdats m 0 c).arrAt w cfg0.N = Gen.V2 m (outs m) c (Pipeline.arrRef spec0 w) :=
  match w with
  | ⟨0, _⟩ => ((dat0 (entry0 m) c).arrAt_in 0 rfl _).trans ((dat0_A (entry0 m) c 0).trans (Gen.V2_of m (outs m) c main_arg0 (by decide)).symm)
  | ⟨1, _⟩ => ((dat0 (entry0 m) c).arrAt_in 1 rfl _).trans ((dat0_A (entry0 m) c 1).trans (Gen.V2_of m (outs m) c main_arg3 (by decide)).symm)
  | ⟨2, _⟩ => (V2_at_xw m c).symm

theorem exit0_rest (c : Dev nD) : ∀ b, b ∉ Finset.univ.image (Pipeline.arrRef spec0) → Gen.V2 m (outs m) c b = entry0 m c b :=
  fun b hb => Gen.V2_of m (outs m) c b (by
    intro h; rw [List.mem_singleton] at h; subst h
    exact hb (Finset.mem_image.mpr ⟨2, Finset.mem_univ _, rfl⟩))

/-- After region 1 likewise: the four inputs their entry contents, the output the result array. -/
theorem exit1_arr (c : Dev nD) (w : Fin cfg1.W) :
    (pdats m 1 c).arrAt w cfg1.N = Gen.V3 m (outs m) c (Pipeline.arrRef spec1 w) :=
  match w with
  | ⟨0, _⟩ => ((dat1 (entry1 m) c).arrAt_in 0 rfl _).trans ((dat1_A (entry1 m) c 0).trans
      ((congrFun (V2_outs m c) main_arg1).symm.trans (Gen.V3_of m (outs m) c main_arg1 (by decide)).symm))
  | ⟨1, _⟩ => ((dat1 (entry1 m) c).arrAt_in 1 rfl _).trans ((dat1_A (entry1 m) c 1).trans
      ((congrFun (V2_outs m c) main_v1).symm.trans (Gen.V3_of m (outs m) c main_v1 (by decide)).symm))
  | ⟨2, _⟩ => ((dat1 (entry1 m) c).arrAt_in 2 rfl _).trans ((dat1_A (entry1 m) c 2).trans
      ((congrFun (V2_outs m c) main_v0).symm.trans (Gen.V3_of m (outs m) c main_v0 (by decide)).symm))
  | ⟨3, _⟩ => ((dat1 (entry1 m) c).arrAt_in 3 rfl _).trans ((dat1_A (entry1 m) c 3).trans
      ((congrFun (V2_outs m c) main_arg0).symm.trans (Gen.V3_of m (outs m) c main_arg0 (by decide)).symm))
  | ⟨4, _⟩ => (V3_at_out m c).symm

theorem exit1_rest (c : Dev nD) : ∀ b, b ∉ Finset.univ.image (Pipeline.arrRef spec1) → Gen.V3 m (outs m) c b = entry1 m c b :=
  fun b hb => (Gen.V3_of m (outs m) c b (by
    intro h; rw [List.mem_singleton] at h; subst h
    exact hb (Finset.mem_image.mpr ⟨4, Finset.mem_univ _, rfl⟩))).trans (congrFun (V2_outs m c) b)

/-! ## The regions as segments of @main -/

set_option backward.isDefEq.respectTransparency.types false in
/-- Region 0 between the buffers after the reshape and the buffers with XW in place. -/
def reg0 : Pipeline.RegionSeg (pcfgs (F := F)) Gen.adm (pdats m) () defs₀ Variants.none noLev lev0 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noLev lev0 0 fun _ _ => rfl
  pre c := iprop(StableHlo.held (c : Thread nD τ) (Pipeline.ucRefs τ sig) (Gen.V1 m c) ∗ beside c)
  post c := iprop(StableHlo.held (c : Thread nD τ) (Pipeline.ucRefs τ sig) (Gen.V2 m (outs m) c) ∗ beside c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (entry0 m c) (fun b => Gen.V2 m (outs m) c b) ((pdats m 0 c).arrAt · cfg0.N) (exit0_arr m c) (exit0_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- Region 1 between the buffers with XW in place and the buffers with the result in place. Its invariant carries the
    scratch: it is entered from the scoped rest as the pipeline hands it over and gives it back at the end. -/
def reg1 : Pipeline.RegionSeg (pcfgs (F := F)) Gen.adm (pdats m) () defs₀ Variants.none noLev lev0 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noLev lev0 1 fun _ _ => rfl
  pre c := iprop(StableHlo.held (c : Thread nD τ) (Pipeline.ucRefs τ sig) (Gen.V2 m (outs m) c) ∗ beside c)
  post c := iprop(StableHlo.held (c : Thread nD τ) (Pipeline.ucRefs τ sig) (Gen.V3 m (outs m) c) ∗ beside c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V2_outs m c]
    have hsplit := Pipeline.arrays_of_unscopedBufs (p := 1) (pcfgs (F := F)) Gen.adm (pdats m) launch1.win launch1.arr_whole c
      ((pdats m 1 c).share_full fun _ => rfl) (entry1 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine .trans ?_ (dat1_hin (entry1 m) c)
    unfold Pipeline.ΦA
    iintro ⟨Hreg, -, Hscoped⟩
    isplitl [Hscoped]; · iexact Hscoped
    iexact Hreg
  hout c := by
    rw [Pipeline.ownSems0_none]
    refine (dat1_hout (entry1 m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (entry1 m c) (fun b => Gen.V3 m (outs m) c b) ((pdats m 1 c).arrAt · cfg1.N) (exit1_arr m c) (exit1_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## The run -/

set_option backward.isDefEq.respectTransparency.types false in
/-- THE RUN WITH ITS VALUE. From any memory with zero counters every weakly fair execution of @main terminates, nothing
    faulting; the result buffer ends holding region 1's output array and the four arguments end as launched: @main is the
    reshape, region 0, region 1 in that order, each item entered from what the one before left, and the last thread state
    is read at the result buffer and at the arguments. -/
theorem run_valued : θ_run defs (onTc (τ := τ) (main (F := F))) ⟨m, fun _ => 0, ρ⟩ (fun r => ∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ Variants.none noLev lev0 m ρ main
    (Gen.segs m Variants.none noLev lev0 (fun _ => beside) () (pdats m) (reg0 m) (reg1 m))
    (fun c Q => by
      rewrite [main_chain c, Pipeline.Seg.run_eq_chain,
        show (Gen.segs m Variants.none noLev lev0 (fun _ => beside) () (pdats m) (reg0 m) (reg1 m) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ beside c))
    (Tₙ := fun c => StableHlo.held (c : Thread nD τ) (Pipeline.ucRefs τ sig) (Gen.V3 m (outs m) c))
    (hch := fun c => ⟨.rfl, .rfl, .rfl, sep_mono .rfl (by iintro ⟨-, H⟩; iexact H)⟩)
    (hinit := ?_)
    (QY := fun c s => s.mem ((c.tc : Thread nD τ).loc main_v2) = outArr m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch: every core's unscoped buffers at the launch memory, its generator register, nothing owed
    refine Pipeline.initEach noLev lev0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hbufs, -, Howes, -, Hreg, -⟩, -⟩
    imodintro
    isplitl [Hbufs]; · iexact Hbufs
    isplitl [Hreg]; · iexists _; iexact Hreg
    iexists ∅; iexact Howes
  · -- the end: the result buffer and each argument's buffer read off the last valuation
    unfold StableHlo.held
    iintro ⟨Hh, HSI⟩
    ihave Hr := (pointsTo_read_all (Pipeline.ucRefs τ sig) (fun b => ((c : Thread nD τ).1, b)) (Gen.V3 m (outs m) c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (V3_at_out m c),
        (h (Proc.devRef .tc main_arg0) (Finset.mem_filter.mpr ⟨StableHlo.devRef_mem_tcRefs main_arg0, by decide⟩)).trans (Gen.V3_main_arg0 m (outs m) c),
        (h (Proc.devRef .tc main_arg1) (Finset.mem_filter.mpr ⟨StableHlo.devRef_mem_tcRefs main_arg1, by decide⟩)).trans (Gen.V3_main_arg1 m (outs m) c),
        (h (Proc.devRef .tc main_arg2) (Finset.mem_filter.mpr ⟨StableHlo.devRef_mem_tcRefs main_arg2, by decide⟩)).trans (Gen.V3_main_arg2 m (outs m) c),
        (h (Proc.devRef .tc main_arg3) (Finset.mem_filter.mpr ⟨StableHlo.devRef_mem_tcRefs main_arg3, by decide⟩)).trans (Gen.V3_main_arg3 m (outs m) c)⟩
    · iexact HSI

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_valued m ρ)

end Cert.KernelIdeal.Agg

end
-- ==== Proof.Word.AggData.lean ====
/-
  The proof data of the two pipelines of the graph-aggregation program, at a parameter `V`: the contents of the
  TensorCore's buffers when a region is entered.

  Region 0 (grid of 4 row blocks of 4096 rows) computes XW = X · W block by block: at point `t` the output block is the
  product of X's rows 4096·t … 4096·t+4095 with the whole 64×64 matrix W.

  Region 1 (grid 16 × 8: row block `i` of 1024 rows, column block `k` of 2048 columns of the adjacency matrix) keeps a
  running sum in a scratch buffer: at `k = 0` the sum restarts from zero, at every point the product of the
  1024×2048 block of A with the matching 2048×64 block of XW is added, and at `k = 7` the finished sum S is
  combined row by row, `w · max(S, 0) + (1 − w) · X`, into the output block.
-/
import proofs.«163471_j56341380989595_1_alg».proof.Proof.Gen.Kernel.Launch
import proofs.«163471_j56341380989595_1_alg».proof.Proof.Gen.Kernel.Skeleton
import proofs.«163471_j56341380989595_1_alg».proof.Proof.Gen.Kernel.Points
import Idealize.ShloMosaic.Lib.Pipeline.FrameBody
import Idealize.ShloMosaic.Lib.Pipeline.Value
import Idealize.ShloMosaic.Lib.Pipeline.Frame
import Idealize.ShloMosaic.Lib.Tactic
set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: XW = X · W, one block of 4096 rows per point -/

/-- Window `w`'s block of region 0 at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of XW that point `t` produces: the rows of X in its block times the whole of W. -/
def xwBlock (c : Dev nD) (t : Fin cfg0.N) : Vec F S4096x64 .bf16 :=
  k0_pay1 (blk0 V c 0 t) (blk0 V c 1 t)

/-- Region 0's proof data: the inputs' buffers keep their blocks, the output's holds the product block; the body
    uses nothing but its windows, so the invariant is the untouched scoped rest and the generator register. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => xwBlock V c t
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = xwBlock V c t := by dsimp only [dat0]

/-! ## Region 1: the running sum over column blocks and the row-wise combination -/

/-- Window `w`'s block of region 1 at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer the kernel keeps its running sum in. -/
abbrev accRef : Memref sig .tc .vmem S1024x64 .f32 := Memref.whole cc1_scratch0

/-- THE RUNNING SUM after point `n`: at a point whose column block is the first (`n` a multiple of 8) the block
    product added to zero, at any other point the block product added to what the point before left. -/
def accAt (c : Dev nD) : (n : ℕ) → n < cfg1.N → Vec F S1024x64 .f32
  | 0, hn => k1_pay2 (blk1 V c 0 ⟨0, hn⟩) (k1_pay1 (F := F)) (blk1 V c 1 ⟨0, hn⟩)
  | n + 1, hn =>
    if (n + 1) % 8 = 0 then k1_pay2 (blk1 V c 0 ⟨n + 1, hn⟩) (k1_pay1 (F := F)) (blk1 V c 1 ⟨n + 1, hn⟩)
    else k1_pay2 (blk1 V c 0 ⟨n + 1, hn⟩) (accAt c n (Nat.lt_of_succ_lt hn)) (blk1 V c 1 ⟨n + 1, hn⟩)

theorem accAt_first (c : Dev nD) (t : Fin cfg1.N) (h : t.val % 8 = 0) :
    accAt V c t.val t.isLt = k1_pay2 (blk1 V c 0 t) (k1_pay1 (F := F)) (blk1 V c 1 t) := by
  obtain ⟨n, hn⟩ := t
  cases n with
  | zero => rfl
  | succ n => exact (if_pos h)

theorem accAt_later (c : Dev nD) (t : Fin cfg1.N) (h : ¬ t.val % 8 = 0) :
    accAt V c t.val t.isLt = k1_pay2 (blk1 V c 0 t) (accAt V c (t.val - 1) (Nat.lt_of_le_of_lt (Nat.sub_le _ _) t.isLt)) (blk1 V c 1 t) := by
  obtain ⟨n, hn⟩ := t
  cases n with
  | zero => exact absurd (Nat.zero_mod _) h
  | succ n => exact (if_neg h)

/-- The output block a point at the last column block stores: the finished sum combined with `w` and X row by row. -/
def outBlock (c : Dev nD) (t : Fin cfg1.N) : Vec F S1024x64 .f32 :=
  k1_pay3 (accAt V c t.val t.isLt) (blk1 V c 2 t) (blk1 V c 3 t)

/-- The core's scoped buffers that region 1 does not stage: region 0's five staging buffers, each whole at some
    contents, and the scratch buffer in the state `S`. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- Region 1's invariant before position `n`: before the first point the scratch holds anything; afterwards it holds
    the running sum the point before left. The other scoped buffers and the generator register ride along. -/
def PhiAcc (c : Dev nD) : (n : ℕ) → n ≤ cfg1.N → sProp 𝕄
  | 0, _ => Pipeline.ΦA spec1 c
  | n + 1, hn => iprop(scopedWith (F := F) c (owns (c : Thread nD τ) accRef fullShare (accAt V c n hn)) ∗ (∃ r, prngReg c r))

/-- Region 1's proof data: the inputs' buffers keep their blocks; the output's buffer holds the combined block (stated
    at every point, consulted only where the block is stored and written back: the last column block). -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outBlock V c t
  Φ t := PhiAcc V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = outBlock V c t := by dsimp only [dat1]

end Cert.Kernel.Agg

end
-- ==== Proof.Word.AggBody.lean ====
/-
  Region 1's body at a grid point, by the position `k` of the point in its row block's run of 8 column blocks.
  At `k = 0` the scratch is first set to zero; at every point the product of the adjacency block with the XW block is
  added to the scratch; at `k = 7` the scratch, now the full row-block sum S, is read once more and
  `w · max(S, 0) + (1 − w) · X` is stored over the whole output buffer. At the other points the output buffer is not
  touched.
-/
import proofs.«163471_j56341380989595_1_alg».proof.Proof.Gen.Kernel.Launch
import proofs.«163471_j56341380989595_1_alg».proof.Proof.Gen.Kernel.Skeleton
import proofs.«163471_j56341380989595_1_alg».proof.Proof.Gen.Kernel.Points
import proofs.«163471_j56341380989595_1_alg».proof.Proof.Word.AggData
set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, and where they hold on the grid -/

/-- "This is the first column block": the condition under which the body zeroes the scratch. -/
abbrev isFirst (i : grid1.Coords) : Prop := (Scalar.cmpi .ne (Scalar.extui (Scalar.cmpi .eq (BitVec.ofNat 32 (i 1).val) 0#32)) 0#32) = 1#1
/-- "This is the last column block": the condition under which the body stores the output block. -/
abbrev isLast (i : grid1.Coords) : Prop := k1_cond2 i = 1#1

theorem isFirst_iff : ∀ t : Fin cfg1.N, isFirst (grid1.coords t) ↔ t.val % 8 = 0 :=
  (by decide +kernel : ∀ t : Fin grid1.N, isFirst (grid1.coords t) ↔ t.val % 8 = 0)
theorem isLast_iff : ∀ t : Fin cfg1.N, isLast (grid1.coords t) ↔ t.val % 8 = 7 :=
  (by decide +kernel : ∀ t : Fin grid1.N, isLast (grid1.coords t) ↔ t.val % 8 = 7)

/-- The output window is idle exactly off the last column block, and is not written back there. -/
theorem out_idle : ∀ t : Fin cfg1.N, ¬ t.val % 8 = 7 → cfg1.idle 4 (grid1.coords t) = true :=
  (by decide +kernel : ∀ t : Fin grid1.N, ¬ t.val % 8 = 7 → cfg1.idle 4 (grid1.coords t) = true)
theorem out_live : ∀ t : Fin cfg1.N, t.val % 8 = 7 → cfg1.idle 4 (grid1.coords t) = false :=
  (by decide +kernel : ∀ t : Fin grid1.N, t.val % 8 = 7 → cfg1.idle 4 (grid1.coords t) = false)
theorem out_noflush (t : Fin cfg1.N) (h : ¬ t.val % 8 = 7) : (cfg1.win 4).flush t = false := by
  cases hf : (cfg1.win 4).flush t
  · rfl
  · exact absurd ((flush1_4 t).mp hf) h

theorem zero2 : (![0, 0] : Fin 2 → Nat) = fun _ => 0 := funext fun a => by
  match a with
  | ⟨0, _⟩ => rfl
  | ⟨1, _⟩ => rfl

/-- The rectangle of zero offsets and the buffer's own sizes holds every index of the buffer. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A store over the whole 1024×64 buffer covers it, whatever was stored before. -/
theorem acc_store_covers (p : Vec F S1024x64 .f32) (L : List (View.Piece (Elt F) S1024x64 .f32)) (y : S1024x64.Idx) :
    ∃ pc ∈ ((⟨Rect.unit (s := S1024x64) ![0, 0] S1024x64.size inb_S1024x64_S1024x64_0_0, p⟩ : View.Piece (Elt F) S1024x64 .f32) :: L), y ∈ pc.1.set :=
  ⟨_, List.mem_cons_self, mem_unit_zero zero2 inb_S1024x64_S1024x64_0_0 y⟩

/-! ## The body's triple, case by case -/

set_option maxHeartbeats 2000000 in
/-- First column block: the scratch, at anything, is zeroed and then receives the first block product. -/
theorem sound_agg_first (c : Dev nD) (E : Set ℕ) (i : grid1.Coords) (hf : isFirst i) (hl : ¬ isLast i)
    (a2 : Memref sig .tc .vmem S1024x2048 .f32) (h2 : a2.IsWhole) (a3 : Memref sig .tc .vmem S2048x64 .bf16) (h3 : a3.IsWhole)
    (a4 : Memref sig .tc .vmem S1024x1 .f32) (h4 : a4.IsWhole) (a5 : Memref sig .tc .vmem S1024x64 .f32) (h5 : a5.IsWhole)
    (a6 : Memref sig .tc .vmem S1024x64 .f32) (h6 : a6.IsWhole) (a7 : Memref sig .tc .vmem S1024x64 .f32) (h7 : a7.IsWhole)
    (A : Vec F S1024x2048 .f32) (B : Vec F S2048x64 .bf16) (K : PUnit → sProp 𝕄) :
    iprop(owns (c : Thread nD τ) a2 fullShare A ∗ owns (c : Thread nD τ) a3 fullShare B ∗ (∃ d, owns (c : Thread nD τ) a7 fullShare d)
        ∗ (iprop(owns (c : Thread nD τ) a2 fullShare A ∗ owns (c : Thread nD τ) a3 fullShare B
            ∗ owns (c : Thread nD τ) a7 fullShare (k1_pay2 A (k1_pay1 (F := F)) B)) -∗ K ⟨⟩))
      ⊢ wp frame (wpE (defs₀ (F := F)) Variants.none c none) E (cc1__agg_kernel i a2 h2 a3 h3 a4 h4 a5 h5 a6 h6 a7 h7) K := by
  simp only [cc1__agg_kernel_eq_skeleton]; unfold cc1__agg_kernel_skel
  unfold owns
  iintro ⟨⟨%f2, %hf2, H2⟩, ⟨%f3, %hf3, H3⟩, ⟨%d7, %f7, -, H7⟩, Hk⟩
  subst hf2; subst hf3
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H7
  ipureintro
  sl_unfold_words
  rw [View.read_writes_eq_canon _ _ _ (acc_store_covers _ _), View.canon_cons_unit_zero zero2]
  simp only [View.readAt_eq_ld, View.ld_unit_zero (S := S1024x2048) zero2, View.ld_unit_zero (S := S2048x64) zero2]
  rw [View.readCov_unit_zero (S := S1024x64) a7.view zero2 inb_S1024x64_S1024x64_0_0]

set_option maxHeartbeats 2000000 in
/-- A column block that is neither first nor last: the block product is added to what the scratch held. -/
theorem sound_agg_mid (c : Dev nD) (E : Set ℕ) (i : grid1.Coords) (hf : ¬ isFirst i) (hl : ¬ isLast i)
    (a2 : Memref sig .tc .vmem S1024x2048 .f32) (h2 : a2.IsWhole) (a3 : Memref sig .tc .vmem S2048x64 .bf16) (h3 : a3.IsWhole)
    (a4 : Memref sig .tc .vmem S1024x1 .f32) (h4 : a4.IsWhole) (a5 : Memref sig .tc .vmem S1024x64 .f32) (h5 : a5.IsWhole)
    (a6 : Memref sig .tc .vmem S1024x64 .f32) (h6 : a6.IsWhole) (a7 : Memref sig .tc .vmem S1024x64 .f32) (h7 : a7.IsWhole)
    (A : Vec F S1024x2048 .f32) (B : Vec F S2048x64 .bf16) (S : Vec F S1024x64 .f32) (K : PUnit → sProp 𝕄) :
    iprop(owns (c : Thread nD τ) a2 fullShare A ∗ owns (c : Thread nD τ) a3 fullShare B ∗ owns (c : Thread nD τ) a7 fullShare S
        ∗ (iprop(owns (c : Thread nD τ) a2 fullShare A ∗ owns (c : Thread nD τ) a3 fullShare B
            ∗ owns (c : Thread nD τ) a7 fullShare (k1_pay2 A S B)) -∗ K ⟨⟩))
      ⊢ wp frame (wpE (defs₀ (F := F)) Variants.none c none) E (cc1__agg_kernel i a2 h2 a3 h3 a4 h4 a5 h5 a6 h6 a7 h7) K := by
  simp only [cc1__agg_kernel_eq_skeleton]; unfold cc1__agg_kernel_skel
  unfold owns
  iintro ⟨⟨%f2, %hf2, H2⟩, ⟨%f3, %hf3, H3⟩, ⟨%f7, %hf7, H7⟩, Hk⟩
  subst hf2; subst hf3; subst hf7
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H7
  ipureintro
  rw [View.read_writes_eq_canon _ _ _ (acc_store_covers _ _), View.canon_unit_zero zero2]
  simp only [View.readAt_eq_ld, View.ld_unit_zero (S := S1024x2048) zero2, View.ld_unit_zero (S := S2048x64) zero2,
    View.ld_unit_zero (S := S1024x64) zero2]

set_option maxHeartbeats 2000000 in
/-- Last column block: the block product is added, and the finished sum is combined with `w` and X into the output
    buffer, which held anything. -/
theorem sound_agg_last (c : Dev nD) (E : Set ℕ) (i : grid1.Coords) (hf : ¬ isFirst i) (hl : isLast i)
    (a2 : Memref sig .tc .vmem S1024x2048 .f32) (h2 : a2.IsWhole) (a3 : Memref sig .tc .vmem S2048x64 .bf16) (h3 : a3.IsWhole)
    (a4 : Memref sig .tc .vmem S1024x1 .f32) (h4 : a4.IsWhole) (a5 : Memref sig .tc .vmem S1024x64 .f32) (h5 : a5.IsWhole)
    (a6 : Memref sig .tc .vmem S1024x64 .f32) (h6 : a6.IsWhole) (a7 : Memref sig .tc .vmem S1024x64 .f32) (h7 : a7.IsWhole)
    (A : Vec F S1024x2048 .f32) (B : Vec F S2048x64 .bf16) (wv : Vec F S1024x1 .f32) (X : Vec F S1024x64 .f32)
    (S : Vec F S1024x64 .f32) (K : PUnit → sProp 𝕄) :
    iprop(owns (c : Thread nD τ) a2 fullShare A ∗ owns (c : Thread nD τ) a3 fullShare B ∗ owns (c : Thread nD τ) a4 fullShare wv
        ∗ owns (c : Thread nD τ) a5 fullShare X ∗ (∃ d, owns (c : Thread nD τ) a6 fullShare d) ∗ owns (c : Thread nD τ) a7 fullShare S
        ∗ (iprop(owns (c : Thread nD τ) a2 fullShare A ∗ owns (c : Thread nD τ) a3 fullShare B ∗ owns (c : Thread nD τ) a4 fullShare wv
            ∗ owns (c : Thread nD τ) a5 fullShare X ∗ owns (c : Thread nD τ) a6 fullShare (k1_pay3 (k1_pay2 A S B) wv X)
            ∗ owns (c : Thread nD τ) a7 fullShare (k1_pay2 A S B)) -∗ K ⟨⟩))
      ⊢ wp frame (wpE (defs₀ (F := F)) Variants.none c none) E (cc1__agg_kernel i a2 h2 a3 h3 a4 h4 a5 h5 a6 h6 a7 h7) K := by
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf2; subst hf3; subst hf4; subst hf5; subst hf7
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (acc_store_covers _ _), View.canon_unit_zero zero2]
    simp only [View.readAt_eq_ld, View.ld_unit_zero (S := S1024x2048) zero2, View.ld_unit_zero (S := S2048x64) zero2,
      View.ld_unit_zero (S := S1024x64) zero2, View.ld_unit_zero (S := S1024x1) zero2]
    rw [View.readCov_unit_zero (S := S1024x64) a7.view zero2 inb_S1024x64_S1024x64_0_0]
  iexists _; isplitr
  swap; · iexact H7
  ipureintro
  sl_unfold_words
  rw [View.read_writes_eq_canon _ _ _ (acc_store_covers _ _), View.canon_unit_zero zero2]
  simp only [View.readAt_eq_ld, View.ld_unit_zero (S := S1024x2048) zero2, View.ld_unit_zero (S := S2048x64) zero2,
    View.ld_unit_zero (S := S1024x64) zero2]

end Cert.Kernel.Agg

end
-- ==== Proof.Word.AggOblig.lean ====
/-
  Region 1's body obligation. At every grid point the four input buffers hold their blocks (two of them are fetched only
  at a row block's first column block and stay in place along the row block). The scratch holds the running sum the point
  before left (anything, at the very first point), and ends holding this point's running sum. The output buffer is handed
  back untouched except at a row block's last column block, where it receives the combined block.
-/
import proofs.«163471_j56341380989595_1_alg».proof.Proof.Gen.Kernel.Launch
import proofs.«163471_j56341380989595_1_alg».proof.Proof.Gen.Kernel.Skeleton
import proofs.«163471_j56341380989595_1_alg».proof.Proof.Gen.Kernel.Points
import proofs.«163471_j56341380989595_1_alg».proof.Proof.Word.AggBody
set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks at every point -/

theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
/-- The column of `w` is fetched once per row block; along the row block its block index does not move. -/
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)
/-- Likewise the block of X. -/
theorem dat1_before3 (c : Dev nD) (t : Fin cfg1.N) (d) : (dat1 V c).before 3 t d = blk1 V c 3 t :=
  ((dat1 V c).before_in_eq_fetched 3 rfl (fun _ => rfl) (fun _ _ _ => rfl)
    (fun t => by rw [dat1_after3]; unfold Dat.blockOf blk1; rw [dat1_A]; try rfl) t d).trans
    (by unfold Dat.fetched Dat.blockOf blk1; rw [dat1_A]; try rfl)

/-! ## The invariant, point by point -/

/-- What the pipeline hands a region's body beside its windows — the scoped buffers it does not stage and the generator
    register — with the scratch buffer singled out. -/
theorem PhiA1_eq (c : Dev nD) :
    (Pipeline.ΦA spec1 c : sProp 𝕄)
      = iprop(scopedWith (F := F) c iprop(∃ d, owns (c : Thread nD τ) accRef fullShare d) ∗ (∃ r, prngReg c r)) := by
  unfold Pipeline.ΦA scopedWith; rw [scopedRest1_eq]; simp only [accRef, owns_whole]; rfl

theorem scopedWith_mono (c : Dev nD) {S S' : sProp 𝕄} (h : S ⊢ S') : scopedWith (F := F) c S ⊢ scopedWith (F := F) c S' := by
  unfold scopedWith
  exact sep_mono .rfl (sep_mono .rfl (sep_mono .rfl (sep_mono .rfl (sep_mono .rfl h))))

theorem PhiAcc_zero (c : Dev nD) (n : ℕ) (h : n ≤ cfg1.N) (hz : n = 0) : PhiAcc V c n h = Pipeline.ΦA spec1 c := by
  subst hz; rfl

theorem PhiAcc_succ (c : Dev nD) (n : ℕ) (hn : n < cfg1.N) :
    PhiAcc V c (n + 1) hn = iprop(scopedWith (F := F) c (owns (c : Thread nD τ) accRef fullShare (accAt V c n hn)) ∗ (∃ r, prngReg c r)) := rfl

theorem PhiAcc_pos (c : Dev nD) (n : ℕ) (h : n ≤ cfg1.N) (hz : n ≠ 0) :
    PhiAcc V c n h = iprop(scopedWith (F := F) c (owns (c : Thread nD τ) accRef fullShare (accAt V c (n - 1) (by omega))) ∗ (∃ r, prngReg c r)) := by
  cases n with
  | zero => exact absurd rfl hz
  | succ n => rfl

theorem dat1_Phi_castSucc (c : Dev nD) (t : Fin cfg1.N) :
    (dat1 V c).Φ t.castSucc = PhiAcc V c t.val (Nat.le_of_lt t.isLt) := by
  dsimp only [dat1]; simp only [Fin.coe_castSucc]

/-- Before any point the scratch can be taken at SOME contents (named ones are forgotten). -/
theorem PhiAcc_some (c : Dev nD) (n : ℕ) (h : n ≤ cfg1.N) :
    PhiAcc V c n h ⊢ iprop(scopedWith (F := F) c iprop(∃ d, owns (c : Thread nD τ) accRef fullShare d) ∗ (∃ r, prngReg c r)) := by
  by_cases hz : n = 0
  · rw [PhiAcc_zero V c n h hz, PhiA1_eq]
  · rw [PhiAcc_pos V c n h hz]
    exact sep_mono (scopedWith_mono c (by iintro H; iexists _; iexact H)) .rfl

/-! ## The body at a generic point -/

set_option maxHeartbeats 4000000 in
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ (dat1 V c).leavesExact 4 t)) := by
  simp only [dat1_before0, dat1_before1, dat1_before2, dat1_before3]
  rw [show (dat1 V c).owesAt () t.succ = (dat1 V c).owesAt () t.castSucc from rfl,
    show (dat1 V c).Φ t.succ = PhiAcc V c (t.val + 1) t.isLt from rfl, PhiAcc_succ,
    dat1_after0, dat1_after1, dat1_after2, dat1_after3, dat1_Phi_castSucc]
  unfold bodyAt1
  by_cases h0 : t.val % 8 = 0
  · -- first column block: whatever the scratch held is overwritten
    have h7 : ¬ t.val % 8 = 7 := by omega
    rw [Dat.leavesExact_idle (dat1 V c) 4 t (out_idle t h7) (out_noflush t h7), accAt_first V c t h0]
    refine (sep_mono (PhiAcc_some V c _ _) .rfl).trans ?_
    unfold scopedWith
    iintro ⟨⟨⟨Ha, Hb, Hc, Hd, He, HS⟩, Hg⟩, Ho, ⟨%d0, H0⟩, ⟨%d1, H1⟩, ⟨%d2, H2⟩, ⟨%d3, H3⟩, H4⟩
    iapply (sound_agg_first c Set.univ (grid1.coords t) ((isFirst_iff t).mpr h0) (fun h => h7 ((isLast_iff t).mp h))
      _ _ _ _ _ _ _ _ _ _ _ _ (blk1 V c 0 t) (blk1 V c 1 t) _)
    isplitl [H0]; · iexact H0
    isplitl [H1]; · iexact H1
    isplitl [HS]; · iexact HS
    iintro ⟨H0, H1, HS⟩
    isplitl [Ha Hb Hc Hd He HS Hg]
    · isplitr [Hg]
      · isplitl [Ha]; · iexact Ha
        isplitl [Hb]; · iexact Hb
        isplitl [Hc]; · iexact Hc
        isplitl [Hd]; · iexact Hd
        isplitl [He]; · iexact He
        iexact HS
      · iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [PhiAcc_pos V c _ _ hz, accAt_later V c t h0]
    unfold scopedWith
    by_cases h7 : t.val % 8 = 7
    · -- last column block: the finished sum is combined into the output buffer
      rw [show (dat1 V c).leavesExact 4 t = owns (c : Thread nD τ) (st1_4 t) fullShare ((dat1 V c).after 4 t) from by
        unfold Dat.leavesExact; rw [out_live t h7], dat1_after4]
      unfold outBlock
      rw [accAt_later V c t h0]
      iintro ⟨⟨⟨Ha, Hb, Hc, Hd, He, HS⟩, Hg⟩, Ho, ⟨%d0, H0⟩, ⟨%d1, H1⟩, ⟨%d2, H2⟩, ⟨%d3, H3⟩, ⟨%d4, H4⟩⟩
      iapply (sound_agg_last c Set.univ (grid1.coords t) (fun h => h0 ((isFirst_iff t).mp h)) ((isLast_iff t).mpr h7)
        _ _ _ _ _ _ _ _ _ _ _ _ (blk1 V c 0 t) (blk1 V c 1 t) (blk1 V c 2 t) (blk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        · iexact Hg
      isplitl [Ho]; · iexact Ho
      isplitl [H0]; · iexact H0
      isplitl [H1]; · iexact H1
      isplitl [H2]; · iexact H2
      isplitl [H3]; · iexact H3
      iexact H4
    · -- a column block in between: one more product is added
      rw [Dat.leavesExact_idle (dat1 V c) 4 t (out_idle t h7) (out_noflush t h7)]
      iintro ⟨⟨⟨Ha, Hb, Hc, Hd, He, HS⟩, Hg⟩, Ho, ⟨%d0, H0⟩, ⟨%d1, H1⟩, ⟨%d2, H2⟩, ⟨%d3, H3⟩, H4⟩
      iapply (sound_agg_mid c Set.univ (grid1.coords t) (fun h => h0 ((isFirst_iff t).mp h)) (fun h => h7 ((isLast_iff t).mp h))
        _ _ _ _ _ _ _ _ _ _ _ _ (blk1 V c 0 t) (blk1 V c 1 t) _ _)
      isplitl [H0]; · iexact H0
      isplitl [H1]; · iexact H1
      isplitl [HS]; · iexact HS
      iintro ⟨H0, H1, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        · iexact Hg
      isplitl [Ho]; · iexact Ho
      isplitl [H0]; · iexact H0
      isplitl [H1]; · iexact H1
      isplitl [H2]; · iexact H2
      isplitl [H3]; · iexact H3
      iexact H4

/-- The library's body obligation for region 1, at every point. -/
theorem body_obligation1 (c : Dev nD) :
    BodyObligation (dat1 (F := F) V c) (defs₀ (F := F)) Variants.none () Set.univ := fun t => by
  rw [bigSep_W1, bigSep_W1]
  exact sound_body1 V c t

/-- What the pipeline hands the region is the invariant before the first point. -/
theorem dat1_hin (c : Dev nD) : Pipeline.ΦA spec1 c ⊢ (dat1 V c).Φ 0 := by
  rw [show (dat1 V c).Φ 0 = PhiAcc V c 0 (Nat.zero_le _) from rfl, PhiAcc_zero V c 0 _ rfl]

/-- After the last point the running sum's name is forgotten and the scoped rest is handed back. -/
theorem dat1_hout (c : Dev nD) : (dat1 V c).Φ (Fin.last cfg1.N) ⊢ Pipeline.ΦA spec1 c := by
  rw [show (dat1 V c).Φ (Fin.last cfg1.N) = PhiAcc V c (Fin.last cfg1.N).val (Nat.le_of_lt_succ (Fin.last cfg1.N).isLt) from rfl, PhiA1_eq]
  exact PhiAcc_some V c _ _

end Cert.Kernel.Agg

end
-- ==== Proof.Word.XwBody.lean ====
/-
  Region 0's body at a grid point: it loads the block of X and the matrix W, multiplies them, and stores the product
  over the whole output buffer. Whatever the output buffer held before is overwritten, so the buffer ends at the product
  block; the two input buffers are only read.
-/
import proofs.«163471_j56341380989595_1_alg».proof.Proof.Gen.Kernel.Launch
import proofs.«163471_j56341380989595_1_alg».proof.Proof.Gen.Kernel.Skeleton
import proofs.«163471_j56341380989595_1_alg».proof.Proof.Gen.Kernel.Points
import proofs.«163471_j56341380989595_1_alg».proof.Proof.Word.AggData
set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's one store covers its buffer: the rectangle is the whole 4096×64 block. -/
theorem xw_store_covers (p : Vec F S4096x64 .bf16) (y : S4096x64.Idx) :
    ∃ pc ∈ ([⟨Rect.unit (s := S4096x64) ![0, 0] S4096x64.size inb_S4096x64_S4096x64_0_0, p⟩] : List (View.Piece (Elt F) S4096x64 .bf16)), y ∈ pc.1.set :=
  View.cover_of_tiled _ S4096x64.size (by rfl) y

set_option maxHeartbeats 1000000 in
/-- The product kernel on whole buffers: the inputs at `x` and `w`, the output at anything, ends with the inputs as
    they were and the output at the product payload of `x` and `w`. -/
theorem sound_xw (c : Dev nD) (E : Set ℕ) (i : grid0.Coords)
    (a1 : Memref sig .tc .vmem S4096x64 .f32) (h1 : a1.IsWhole) (a2 : Memref sig .tc .vmem S64x64 .f32) (h2 : a2.IsWhole)
    (a3 : Memref sig .tc .vmem S4096x64 .bf16) (h3 : a3.IsWhole)
    (x : Vec F S4096x64 .f32) (w : Vec F S64x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k0_pay1 x w)) -∗ K ⟨⟩))
      ⊢ wp frame (wpE (defs₀ (F := F)) Variants.none c none) E (cc0__xw_kernel i a1 h1 a2 h2 a3 h3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by
    match a with
    | ⟨0, _⟩ => rfl
    | ⟨1, _⟩ => rfl
  rw [View.read_writes_eq_canon _ _ _ (xw_store_covers _), View.canon_unit_zero hz]
  simp only [View.readAt_eq_ld, View.ld_unit_zero (S := S4096x64) hz, View.ld_unit_zero (S := S64x64) hz]

/-! ## The body obligation -/

/-- The block of X sits in its staging buffer at every point: the window is fetched at each of them. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)

/-- W sits in its staging buffer at every point: fetched once, at the first point, its block index never moves and
    the body leaves it in place. -/
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)

/-- At every point the body takes the two input buffers at their blocks and the output buffer at anything, and leaves
    the output buffer at the product block; the invariant and what the core owes pass through untouched. -/
theorem body_obligation0 (c : Dev nD) :
    BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)))
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  unfold bodyAt0 xwBlock
  iintro ⟨HΦ, Ho, ⟨%d0, H0⟩, ⟨%d1, H1⟩, ⟨%d2, H2⟩⟩
  iapply (sound_xw c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Agg

end
-- ==== Proof.Word.AggFlow.lean ====
/-
  How the program's buffers flow from launch to return. The one host operation reshapes `w` into a column; region 0
  then finds X and W as launched and leaves XW in a buffer of its own; region 1 finds that buffer, the adjacency matrix,
  the column of `w` and X, and leaves the result in the output buffer. Each region's proof data is taken at the
  contents the region is entered with.
-/
import proofs.«163471_j56341380989595_1_alg».proof.Proof.Gen.Kernel.Launch
import proofs.«163471_j56341380989595_1_alg».proof.Proof.Gen.Kernel.Skeleton
import proofs.«163471_j56341380989595_1_alg».proof.Proof.Gen.Kernel.Points
import proofs.«163471_j56341380989595_1_alg».proof.Proof.Word.AggData
import proofs.«163471_j56341380989595_1_alg».proof.Proof.Gen.Kernel.Regions
set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents region 0 is entered with: the launch memory after the reshape of `w`. -/
abbrev entry0 (c : Dev nD) (b : Ref sig .tc) : Buf (Elt F) ((c : Thread nD τ).loc b) := Gen.V1 m c b

/-- The array XW as region 0 leaves it: the entry contents overwritten by every point's block. -/
def xwArr (c : Dev nD) : Buf (Elt F) ((c : Thread nD τ).loc main_v1) := (dat0 (entry0 m) c).arrAt 2 cfg0.N

/-- What the regions leave in the buffers they write: XW after region 0; the result after region 1 (below). -/
def outs0 : Gen.Outs (F := F) := fun _ r c =>
  if h : r = main_v1 then h ▸ xwArr m c else Gen.V1 m c r

theorem outs0_xw (c : Dev nD) : outs0 m 2 main_v1 c = xwArr m c := by
  unfold outs0; rw [dif_pos rfl]

/-- The contents region 1 is entered with: region 0's, with XW in its buffer. -/
abbrev entry1 (c : Dev nD) (b : Ref sig .tc) : Buf (Elt F) ((c : Thread nD τ).loc b) := Gen.V2 m (outs0 m) c b

/-- The result array as region 1 leaves it. -/
def outArr (c : Dev nD) : Buf (Elt F) ((c : Thread nD τ).loc main_v2) := (dat1 (entry1 m) c).arrAt 4 cfg1.N

/-- What the regions leave in the buffers they write: XW after region 0, the result after region 1. -/
def outs : Gen.Outs (F := F) := fun _ r c =>
  if h : r = main_v1 then h ▸ xwArr m c else if h' : r = main_v2 then h' ▸ outArr m c else Gen.V1 m c r

theorem outs_xw (c : Dev nD) : outs m 2 main_v1 c = xwArr m c := by
  unfold outs; rw [dif_pos rfl]
theorem outs_out (c : Dev nD) : outs m 3 main_v2 c = outArr m c := by
  unfold outs; rw [dif_neg (by decide), dif_pos rfl]

/-- Both choices of `outs` put XW in its buffer after region 0, so region 1 is entered with the same contents. -/
theorem V2_outs (c : Dev nD) : Gen.V2 m (outs m) c = Gen.V2 m (outs0 m) c := by
  unfold Gen.V2; rw [outs_xw, outs0_xw]

/-- The proof data of the two pipelines, each at its region's entry contents. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

end Cert.Kernel.Agg

end
-- ==== Proof.Word.AggRun.lean ====
/-
  The whole program's run. Between two items of @main a core holds every unscoped buffer whole at known contents, its
  generator register at some state, and owes no other core anything. Each kernel region takes its arrays out of those
  buffers at the contents the proof data are stated at, runs its pipeline, and puts them back with its output array at
  what the write-backs leave; everything else is untouched. At the end the result buffer holds region 1's output
  array and the four arguments hold their launch contents.
-/
import proofs.«163471_j56341380989595_1_alg».proof.Proof.Gen.Kernel.Launch
import proofs.«163471_j56341380989595_1_alg».proof.Proof.Gen.Kernel.Skeleton
import proofs.«163471_j56341380989595_1_alg».proof.Proof.Gen.Kernel.Points
import proofs.«163471_j56341380989595_1_alg».proof.Proof.Word.AggOblig
import proofs.«163471_j56341380989595_1_alg».proof.Proof.Word.XwBody
import proofs.«163471_j56341380989595_1_alg».proof.Proof.Word.AggFlow
import Idealize.ShloMosaic.Lib.Pipeline.RegionsLoop
set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core waits for another: no level is assigned to any pair. -/
abbrev noLev : GSem nD τ sig → Finset Unit := fun _ => ∅
abbrev lev0 : GSem nD τ sig → Unit → ℕ := fun _ _ => 0

/-- What a core holds beside its buffers between two items: its generator register at some state, nothing owed. -/
abbrev beside (c : Dev nD) : sProp 𝕄 :=
  iprop((∃ r, prngReg c r) ∗ ∃ W, owes (c : Thread nD τ) (0 : CellTallies nD τ sig Unit) W)

/-! ## What each region leaves in the buffers -/

theorem V2_at_xw (c : Dev nD) : Gen.V2 m (outs m) c main_v1 = xwArr m c := by
  unfold Gen.V2; rw [Function.update_self, outs_xw]

theorem V3_at_out (c : Dev nD) : Gen.V3 m (outs m) c main_v2 = outArr m c := by
  unfold Gen.V3; rw [Function.update_self, outs_out]

/-- After region 0 each of its arrays holds what the pipeline leaves: the two inputs their entry contents, the output XW. -/
theorem exit0_arr (c : Dev nD) (w : Fin cfg0.W) :
    (pdats m 0 c).arrAt w cfg0.N = Gen.V2 m (outs m) c (Pipeline.arrRef spec0 w) :=
  match w with
  | ⟨0, _⟩ => ((dat0 (entry0 m) c).arrAt_in 0 rfl _).trans ((dat0_A (entry0 m) c 0).trans (Gen.V2_of m (outs m) c main_arg0 (by decide)).symm)
  | ⟨1, _⟩ => ((dat0 (entry0 m) c).arrAt_in 1 rfl _).trans ((dat0_A (entry0 m) c 1).trans (Gen.V2_of m (outs m) c main_arg3 (by decide)).symm)
  | ⟨2, _⟩ => (V2_at_xw m c).symm

theorem exit0_rest (c : Dev nD) : ∀ b, b ∉ Finset.univ.image (Pipeline.arrRef spec0) → Gen.V2 m (outs m) c b = entry0 m c b :=
  fun b hb => Gen.V2_of m (outs m) c b (by
    intro h; rw [List.mem_singleton] at h; subst h
    exact hb (Finset.mem_image.mpr ⟨2, Finset.mem_univ _, rfl⟩))

/-- After region 1 likewise: the four inputs their entry contents, the output the result array. -/
theorem exit1_arr (c : Dev nD) (w : Fin cfg1.W) :
    (pdats m 1 c).arrAt w cfg1.N = Gen.V3 m (outs m) c (Pipeline.arrRef spec1 w) :=
  match w with
  | ⟨0, _⟩ => ((dat1 (entry1 m) c).arrAt_in 0 rfl _).trans ((dat1_A (entry1 m) c 0).trans
      ((congrFun (V2_outs m c) main_arg1).symm.trans (Gen.V3_of m (outs m) c main_arg1 (by decide)).symm))
  | ⟨1, _⟩ => ((dat1 (entry1 m) c).arrAt_in 1 rfl _).trans ((dat1_A (entry1 m) c 1).trans
      ((congrFun (V2_outs m c) main_v1).symm.trans (Gen.V3_of m (outs m) c main_v1 (by decide)).symm))
  | ⟨2, _⟩ => ((dat1 (entry1 m) c).arrAt_in 2 rfl _).trans ((dat1_A (entry1 m) c 2).trans
      ((congrFun (V2_outs m c) main_v0).symm.trans (Gen.V3_of m (outs m) c main_v0 (by decide)).symm))
  | ⟨3, _⟩ => ((dat1 (entry1 m) c).arrAt_in 3 rfl _).trans ((dat1_A (entry1 m) c 3).trans
      ((congrFun (V2_outs m c) main_arg0).symm.trans (Gen.V3_of m (outs m) c main_arg0 (by decide)).symm))
  | ⟨4, _⟩ => (V3_at_out m c).symm

theorem exit1_rest (c : Dev nD) : ∀ b, b ∉ Finset.univ.image (Pipeline.arrRef spec1) → Gen.V3 m (outs m) c b = entry1 m c b :=
  fun b hb => (Gen.V3_of m (outs m) c b (by
    intro h; rw [List.mem_singleton] at h; subst h
    exact hb (Finset.mem_image.mpr ⟨4, Finset.mem_univ _, rfl⟩))).trans (congrFun (V2_outs m c) b)

/-! ## The regions as segments of @main -/

set_option backward.isDefEq.respectTransparency.types false in
/-- Region 0 between the buffers after the reshape and the buffers with XW in place. -/
def reg0 : Pipeline.RegionSeg (pcfgs (F := F)) Gen.adm (pdats m) () defs₀ Variants.none noLev lev0 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noLev lev0 0 fun _ _ => rfl
  pre c := iprop(StableHlo.held (c : Thread nD τ) (Pipeline.ucRefs τ sig) (Gen.V1 m c) ∗ beside c)
  post c := iprop(StableHlo.held (c : Thread nD τ) (Pipeline.ucRefs τ sig) (Gen.V2 m (outs m) c) ∗ beside c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (entry0 m c) (fun b => Gen.V2 m (outs m) c b) ((pdats m 0 c).arrAt · cfg0.N) (exit0_arr m c) (exit0_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- Region 1 between the buffers with XW in place and the buffers with the result in place. Its invariant carries the
    scratch: it is entered from the scoped rest as the pipeline hands it over and gives it back at the end. -/
def reg1 : Pipeline.RegionSeg (pcfgs (F := F)) Gen.adm (pdats m) () defs₀ Variants.none noLev lev0 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noLev lev0 1 fun _ _ => rfl
  pre c := iprop(StableHlo.held (c : Thread nD τ) (Pipeline.ucRefs τ sig) (Gen.V2 m (outs m) c) ∗ beside c)
  post c := iprop(StableHlo.held (c : Thread nD τ) (Pipeline.ucRefs τ sig) (Gen.V3 m (outs m) c) ∗ beside c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V2_outs m c]
    have hsplit := Pipeline.arrays_of_unscopedBufs (p := 1) (pcfgs (F := F)) Gen.adm (pdats m) launch1.win launch1.arr_whole c
      ((pdats m 1 c).share_full fun _ => rfl) (entry1 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine .trans ?_ (dat1_hin (entry1 m) c)
    unfold Pipeline.ΦA
    iintro ⟨Hreg, -, Hscoped⟩
    isplitl [Hscoped]; · iexact Hscoped
    iexact Hreg
  hout c := by
    rw [Pipeline.ownSems0_none]
    refine (dat1_hout (entry1 m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (entry1 m c) (fun b => Gen.V3 m (outs m) c b) ((pdats m 1 c).arrAt · cfg1.N) (exit1_arr m c) (exit1_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## The run -/

set_option backward.isDefEq.respectTransparency.types false in
/-- THE RUN WITH ITS VALUE. From any memory with zero counters every weakly fair execution of @main terminates, nothing
    faulting; the result buffer ends holding region 1's output array and the four arguments end as launched: @main is the
    reshape, region 0, region 1 in that order, each item entered from what the one before left, and the last thread state
    is read at the result buffer and at the arguments. -/
theorem run_valued : θ_run defs (onTc (τ := τ) (main (F := F))) ⟨m, fun _ => 0, ρ⟩ (fun r => ∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ Variants.none noLev lev0 m ρ main
    (Gen.segs m Variants.none noLev lev0 (fun _ => beside) () (pdats m) (reg0 m) (reg1 m))
    (fun c Q => by
      rewrite [main_chain c, Pipeline.Seg.run_eq_chain,
        show (Gen.segs m Variants.none noLev lev0 (fun _ => beside) () (pdats m) (reg0 m) (reg1 m) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ beside c))
    (Tₙ := fun c => StableHlo.held (c : Thread nD τ) (Pipeline.ucRefs τ sig) (Gen.V3 m (outs m) c))
    (hch := fun c => ⟨.rfl, .rfl, .rfl, sep_mono .rfl (by iintro ⟨-, H⟩; iexact H)⟩)
    (hinit := ?_)
    (QY := fun c s => s.mem ((c.tc : Thread nD τ).loc main_v2) = outArr m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch: every core's unscoped buffers at the launch memory, its generator register, nothing owed
    refine Pipeline.initEach noLev lev0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hbufs, -, Howes, -, Hreg, -⟩, -⟩
    imodintro
    isplitl [Hbufs]; · iexact Hbufs
    isplitl [Hreg]; · iexists _; iexact Hreg
    iexists ∅; iexact Howes
  · -- the end: the result buffer and each argument's buffer read off the last valuation
    unfold StableHlo.held
    iintro ⟨Hh, HSI⟩
    ihave Hr := (pointsTo_read_all (Pipeline.ucRefs τ sig) (fun b => ((c : Thread nD τ).1, b)) (Gen.V3 m (outs m) c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (V3_at_out m c),
        (h (Proc.devRef .tc main_arg0) (Finset.mem_filter.mpr ⟨StableHlo.devRef_mem_tcRefs main_arg0, by decide⟩)).trans (Gen.V3_main_arg0 m (outs m) c),
        (h (Proc.devRef .tc main_arg1) (Finset.mem_filter.mpr ⟨StableHlo.devRef_mem_tcRefs main_arg1, by decide⟩)).trans (Gen.V3_main_arg1 m (outs m) c),
        (h (Proc.devRef .tc main_arg2) (Finset.mem_filter.mpr ⟨StableHlo.devRef_mem_tcRefs main_arg2, by decide⟩)).trans (Gen.V3_main_arg2 m (outs m) c),
        (h (Proc.devRef .tc main_arg3) (Finset.mem_filter.mpr ⟨StableHlo.devRef_mem_tcRefs main_arg3, by decide⟩)).trans (Gen.V3_main_arg3 m (outs m) c)⟩
    · iexact HSI

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_valued m ρ)

end Cert.Kernel.Agg

end
-- ==== Proof.AggSpec.lean ====
/-
  What the graph-aggregation layer computes, entry by entry, on the extended reals. With X an N×D feature matrix, A an
  N×N adjacency matrix, w a vector of N residual weights and W a D×D weight matrix (N = 16384, D = 64):

    XW[k, s]   = Σ_j X[k, j] · W[j, s]
    agg[r, s]  = Σ_k A[r, k] · XW[k, s]
    out[r, s]  = w[r] · max(agg[r, s], 0) + (1 − w[r]) · X[r, s]

  The literals 0 and 1 are kept as the f32 words the programs print, the same words on both sides.
-/
import Idealize.ShloMosaic.PureOps.Ideal
import Idealize.ShloMosaic.PureOps.Ideal.Laws
import Idealize.ShloMosaic.Lib.ValueIdx

noncomputable section

namespace Cert.AggSpec

open Idealize.ShloMosaic Idealize.ShloMosaic.ValueIdx

/-- The index types of the four arguments and the result. -/
abbrev IxND : Type := (⟨2, ![16384, 64]⟩ : Shape).Idx
abbrev IxNN : Type := (⟨2, ![16384, 16384]⟩ : Shape).Idx
abbrev IxN : Type := (⟨1, ![16384]⟩ : Shape).Idx
abbrev IxDD : Type := (⟨2, ![64, 64]⟩ : Shape).Idx

/-- One entry of X · W. -/
def xwAt (X : IxND → EReal) (W : IxDD → EReal) (k : Fin 16384) (s : Fin 64) : EReal :=
  ∑ j : Fin 64, X (ix2 k j) * W (ix2 j s)

/-- One entry of A · (X · W). -/
def aggAt (X : IxND → EReal) (A : IxNN → EReal) (W : IxDD → EReal) (r : Fin 16384) (s : Fin 64) : EReal :=
  ∑ k : Fin 16384, A (ix2 r k) * xwAt X W k s

/-- One entry of the layer's output: the rectified aggregate weighted by w, plus the residual weighted by 1 − w. -/
def outAt (X : IxND → EReal) (A : IxNN → EReal) (w : IxN → EReal) (W : IxDD → EReal) (r : Fin 16384) (s : Fin 64) : EReal :=
  w (ix1 r) * max (aggAt X A W r s) (Ideal.ofBits .f32 0x00000000#32)
    + (Ideal.ofBits .f32 0x3F800000#32 - w (ix1 r)) * X (ix2 r s)

/-- X · W as an array. -/
def xwSpec (X : IxND → EReal) (W : IxDD → EReal) : IxND → EReal :=
  fun i => xwAt X W ⟨(i 0).val, (i 0).isLt⟩ ⟨(i 1).val, (i 1).isLt⟩

/-- The layer's output as an array. -/
def outSpec (X : IxND → EReal) (A : IxNN → EReal) (w : IxN → EReal) (W : IxDD → EReal) : IxND → EReal :=
  fun i => outAt X A w W ⟨(i 0).val, (i 0).isLt⟩ ⟨(i 1).val, (i 1).isLt⟩

theorem xwSpec_ix2 (X : IxND → EReal) (W : IxDD → EReal) (k : Fin 16384) (s : Fin 64) :
    xwSpec X W (ix2 k s) = xwAt X W k s := rfl

theorem outSpec_ix2 (X : IxND → EReal) (A : IxNN → EReal) (w : IxN → EReal) (W : IxDD → EReal) (r : Fin 16384) (s : Fin 64) :
    outSpec X A w W (ix2 r s) = outAt X A w W r s := rfl

end Cert.AggSpec

end
-- ==== Proof.AggPayload.lean ====
/-
  The kernels' arithmetic read at one entry, on the extended reals, where a change of float format is the identity and
  a matrix product into a zero accumulator is the plain sum of products.
-/
import proofs.«163471_j56341380989595_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Agg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Row coordinate of the left factor's entry: the output's row. -/
private theorem lhs_xw_0 (i : S4096x64.Idx) (c : dot_S4096x64_S64x64_S4096x64_1_0_0_1_n_n.contr.Idx) :
    (dot_S4096x64_S64x64_S4096x64_1_0_0_1_n_n.lhsIdx i c 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
/-- Column coordinate of the left factor's entry: the summation index. -/
private theorem lhs_xw_1 (i : S4096x64.Idx) (c : dot_S4096x64_S64x64_S4096x64_1_0_0_1_n_n.contr.Idx) :
    (dot_S4096x64_S64x64_S4096x64_1_0_0_1_n_n.lhsIdx i c 1).val = (c ⟨0, by decide⟩).val :=
  dot_S4096x64_S64x64_S4096x64_1_0_0_1_n_n.lhsIdx_val_of_single rfl i c
/-- Row coordinate of the right factor's entry: the summation index. -/
private theorem rhs_xw_0 (i : S4096x64.Idx) (c : dot_S4096x64_S64x64_S4096x64_1_0_0_1_n_n.contr.Idx) :
    (dot_S4096x64_S64x64_S4096x64_1_0_0_1_n_n.rhsIdx i c 0).val = (c ⟨0, by decide⟩).val :=
  dot_S4096x64_S64x64_S4096x64_1_0_0_1_n_n.rhsIdx_val_of_single rfl i c
/-- Column coordinate of the right factor's entry: the output's column. -/
private theorem rhs_xw_1 (i : S4096x64.Idx) (c : dot_S4096x64_S64x64_S4096x64_1_0_0_1_n_n.contr.Idx) :
    (dot_S4096x64_S64x64_S4096x64_1_0_0_1_n_n.rhsIdx i c 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The [4096,64] × [64,64] block product into a zero accumulator, at an entry: the sum over the 64 inner positions. -/
private theorem xw_prod_apply (l : FVec Ideal S4096x64 .bf16) (r : FVec Ideal S64x64 .bf16) (p : Fin 4096) (q : Fin 64) :
    matmul dot_S4096x64_S64x64_S4096x64_1_0_0_1_n_n none l r (constant (F := Ideal) S4096x64 .f32 0x00000000#32) (ix2 p q)
      = ∑ k : Fin 64, l (ix2 p k) * r (ix2 k q) := by
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q) ((contrEquiv1 dot_S4096x64_S64x64_S4096x64_1_0_0_1_n_n 64 rfl rfl).symm k) = ix2 p k := funext fun a => Fin.ext (by
    match a with
    | ⟨0, _⟩ => exact lhs_xw_0 _ _
    | ⟨1, _⟩ => exact (lhs_xw_1 _ _).trans hk)
  have er : dot_S4096x64_S64x64_S4096x64_1_0_0_1_n_n.rhsIdx (ix2 p q) ((contrEquiv1 dot_S4096x64_S64x64_S4096x64_1_0_0_1_n_n 64 rfl rfl).symm k) = ix2 k q := funext fun a => Fin.ext (by
    match a with
    | ⟨0, _⟩ => exact (rhs_xw_0 _ _).trans hk
    | ⟨1, _⟩ => exact rhs_xw_1 _ _)
  rw [el, er]

/-- Row coordinate of the left factor's entry: the output's row. -/
private theorem lhs_agg_0 (i : S1024x64.Idx) (c : dot_S1024x2048_S2048x64_S1024x64_1_0_0_1_n_n.contr.Idx) :
    (dot_S1024x2048_S2048x64_S1024x64_1_0_0_1_n_n.lhsIdx i c 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
/-- Column coordinate of the left factor's entry: the summation index. -/
private theorem lhs_agg_1 (i : S1024x64.Idx) (c : dot_S1024x2048_S2048x64_S1024x64_1_0_0_1_n_n.contr.Idx) :
    (dot_S1024x2048_S2048x64_S1024x64_1_0_0_1_n_n.lhsIdx i c 1).val = (c ⟨0, by decide⟩).val :=
  dot_S1024x2048_S2048x64_S1024x64_1_0_0_1_n_n.lhsIdx_val_of_single rfl i c
/-- Row coordinate of the right factor's entry: the summation index. -/
private theorem rhs_agg_0 (i : S1024x64.Idx) (c : dot_S1024x2048_S2048x64_S1024x64_1_0_0_1_n_n.contr.Idx) :
    (dot_S1024x2048_S2048x64_S1024x64_1_0_0_1_n_n.rhsIdx i c 0).val = (c ⟨0, by decide⟩).val :=
  dot_S1024x2048_S2048x64_S1024x64_1_0_0_1_n_n.rhsIdx_val_of_single rfl i c
/-- Column coordinate of the right factor's entry: the output's column. -/
private theorem rhs_agg_1 (i : S1024x64.Idx) (c : dot_S1024x2048_S2048x64_S1024x64_1_0_0_1_n_n.contr.Idx) :
    (dot_S1024x2048_S2048x64_S1024x64_1_0_0_1_n_n.rhsIdx i c 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The [1024,2048] × [2048,64] block product into a zero accumulator, at an entry: the sum over the 2048 inner positions. -/
private theorem agg_prod_apply (l : FVec Ideal S1024x2048 .bf16) (r : FVec Ideal S2048x64 .bf16) (p : Fin 1024) (q : Fin 64) :
    matmul dot_S1024x2048_S2048x64_S1024x64_1_0_0_1_n_n none l r (constant (F := Ideal) S1024x64 .f32 0x00000000#32) (ix2 p q)
      = ∑ k : Fin 2048, l (ix2 p k) * r (ix2 k q) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p q) ((contrEquiv1 dot_S1024x2048_S2048x64_S1024x64_1_0_0_1_n_n 2048 rfl rfl).symm k) = ix2 p k := funext fun a => Fin.ext (by
    match a with
    | ⟨0, _⟩ => exact lhs_agg_0 _ _
    | ⟨1, _⟩ => exact (lhs_agg_1 _ _).trans hk)
  have er : dot_S1024x2048_S2048x64_S1024x64_1_0_0_1_n_n.rhsIdx (ix2 p q) ((contrEquiv1 dot_S1024x2048_S2048x64_S1024x64_1_0_0_1_n_n 2048 rfl rfl).symm k) = ix2 k q := funext fun a => Fin.ext (by
    match a with
    | ⟨0, _⟩ => exact (rhs_agg_0 _ _).trans hk
    | ⟨1, _⟩ => exact rhs_agg_1 _ _)
  rw [el, er]

/-- A `[a, 1]` column broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An entry of the product block: row `p` of the X block against column `q` of W. -/
theorem xw_pay_apply (x : Vec Ideal S4096x64 .f32) (w : Vec Ideal S64x64 .f32) (p : Fin 4096) (q : Fin 64) :
    k0_pay1 (F := Ideal) x w (ix2 p q) = ∑ j : Fin 64, (x (ix2 p j) : EReal) * (w (ix2 j q) : EReal) := by
  unfold k0_pay1
  rw [truncf_apply, xw_prod_apply]
  rfl

/-- The reset value of the running sum is zero everywhere. -/
theorem acc_zero_apply (p : Fin 1024) (q : Fin 64) : (k1_pay1 (F := Ideal) (ix2 p q) : EReal) = 0 := by
  unfold k1_pay1
  rw [shapeCast_self, broadcast_apply]
  exact Ideal.ofBits_zero_f32

/-- One accumulation step at an entry: what the scratch held plus row `p` of the A block against column `q` of the
    XW block. -/
theorem acc_step_apply (A : Vec Ideal S1024x2048 .f32) (S : Vec Ideal S1024x64 .f32) (B : Vec Ideal S2048x64 .bf16)
    (p : Fin 1024) (q : Fin 64) :
    k1_pay2 (F := Ideal) A S B (ix2 p q) = (S (ix2 p q) : EReal) + ∑ k : Fin 2048, (A (ix2 p k) : EReal) * (B (ix2 k q) : EReal) := by
  unfold k1_pay2
  rw [shapeCast_self, addf_apply, shapeCast_self, agg_prod_apply]
  rfl

/-- The output block at an entry: the rectified sum weighted by the row's `w`, plus X weighted by one minus it. -/
theorem out_pay_apply (S : Vec Ideal S1024x64 .f32) (wv : Vec Ideal S1024x1 .f32) (X : Vec Ideal S1024x64 .f32)
    (p : Fin 1024) (q : Fin 64) :
    k1_pay3 (F := Ideal) S wv X (ix2 p q)
      = (wv (ix2 p 0) : EReal) * max (S (ix2 p q) : EReal) (Ideal.ofBits .f32 0x00000000#32)
        + (Ideal.ofBits .f32 0x3F800000#32 - (wv (ix2 p 0) : EReal)) * (X (ix2 p q) : EReal) := by
  unfold k1_pay3
  rw [addf_apply, mulf_apply, mulf_apply, broadcastTo_a1_ab_apply, broadcastTo_a1_ab_apply, shapeCast_self, maximumf_apply,
    broadcast_apply, subf_apply, broadcast_apply]
  rfl

end Cert.KernelIdeal.Agg

end
-- ==== Proof.XwValue.lean ====
/-
  The array XW as region 0 leaves it. Point `t` of the grid writes back rows 4096·t … 4096·t + 4095, and every row lies
  in exactly one such block, so the array ends holding X · W at every entry.
-/
import proofs.«163471_j56341380989595_1_alg».proof.Proof.AggFlow
import proofs.«163471_j56341380989595_1_alg».proof.Proof.AggSpec
import proofs.«163471_j56341380989595_1_alg».proof.Proof.AggPayload

set_option maxRecDepth 16384

noncomputable section

namespace Cert.KernelIdeal.Agg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Where region 0's three windows sit at each of its four points: the X window and the XW window at row block `t`
    (column block 0), the W window at its only block. -/
private theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks

variable (V : (c : Dev nD) → (b : Ref sig .tc) → Buf (Elt Ideal) ((c : Thread nD τ).loc b))

/-- Row `p` of point `t`'s X block is row `4096·t + p` of X. -/
private theorem xRows_apply (c : Dev nD) (t : Fin cfg0.N) (p : Fin 4096) (j : Fin 64) (k : Fin 16384)
    (hk : k.val = 4096 * t.val + p.val) :
    (blk0 V c 0 t : Vec Ideal S4096x64 .f32) (ix2 p j) = (V c main_arg0 : S16384x64.Idx → Elt Ideal .f32) (ix2 k j) := by
  obtain ⟨e0, e1, -, -, -, -⟩ := blockIdx0 t
  unfold blk0
  rw [View.read_apply]
  show (V c main_arg0 : S16384x64.Idx → Elt Ideal .f32) _ = V c main_arg0 (ix2 k j)
  refine congrArg _ (funext fun a => Fin.ext ?_)
  match a with
  | ⟨0, _⟩ => show win0_0.index t (0 : Fin 2) * 4096 + 1 * p.val = k.val; rw [e0, hk]; omega
  | ⟨1, _⟩ => show win0_0.index t (1 : Fin 2) * 64 + 1 * j.val = j.val; rw [e1]; omega

/-- Every point's W block is the whole of W. -/
private theorem wWhole_apply (c : Dev nD) (t : Fin cfg0.N) (j : Fin 64) (q : Fin 64) :
    (blk0 V c 1 t : Vec Ideal S64x64 .f32) (ix2 j q) = (V c main_arg3 : S64x64.Idx → Elt Ideal .f32) (ix2 j q) := by
  obtain ⟨-, -, e2, e3, -, -⟩ := blockIdx0 t
  unfold blk0
  rw [View.read_apply]
  show (V c main_arg3 : S64x64.Idx → Elt Ideal .f32) _ = V c main_arg3 (ix2 j q)
  refine congrArg _ (funext fun a => Fin.ext ?_)
  match a with
  | ⟨0, _⟩ => show win0_1.index t (0 : Fin 2) * 64 + 1 * j.val = j.val; rw [e2]; omega
  | ⟨1, _⟩ => show win0_1.index t (1 : Fin 2) * 64 + 1 * q.val = q.val; rw [e3]; omega

end Blocks

/-- An array of XW's shape read through point `t`'s output block, at row `p`: its row `4096·t + p`. -/
private theorem xwRows_read (G : S16384x64.Idx → Elt Ideal .bf16) (t : Fin cfg0.N) (p : Fin 4096) (q : Fin 64) (k : Fin 16384)
    (hk : k.val = 4096 * t.val + p.val) :
    (((cfg0.win 2).blk t).view.read (Elt Ideal) G : Vec Ideal S4096x64 .bf16) (ix2 p q) = G (ix2 k q) := by
  obtain ⟨-, -, -, -, e4, e5⟩ := blockIdx0 t
  rw [View.read_apply]
  show G _ = G (ix2 k q)
  refine congrArg _ (funext fun a => Fin.ext ?_)
  match a with
  | ⟨0, _⟩ => show win0_2.index t (0 : Fin 2) * 4096 + 1 * p.val = k.val; rw [e4, hk]; omega
  | ⟨1, _⟩ => show win0_2.index t (1 : Fin 2) * 64 + 1 * q.val = q.val; rw [e5]; omega

section Flow

variable (m : (ℓ : Loc nD τ sig) → Buf (Elt Ideal) ℓ)

/-- X reaches region 0 as launched: the reshape of `w` before it writes another buffer. -/
private theorem entry0_X (c : Dev nD) : entry0 m c main_arg0 = m ((c : Thread nD τ).loc main_arg0) :=
  (Gen.V1_of m c main_arg0 (by decide)).trans rfl

/-- W reaches region 0 as launched. -/
private theorem entry0_W (c : Dev nD) : entry0 m c main_arg3 = m ((c : Thread nD τ).loc main_arg3) :=
  (Gen.V1_of m c main_arg3 (by decide)).trans rfl

/-- WHAT POINT `t` WRITES BACK is block `t` of X · W: entry `(p, q)` of the product block is row `4096·t + p` of X
    against column `q` of W. -/
private theorem xwFlushed (c : Dev nD) (t : Fin cfg0.N) :
    (dat0 (entry0 m) c).flushed 2 t
      = ((cfg0.win 2).blk t).view.read (Elt Ideal)
          (Cert.AggSpec.xwSpec (m ((c : Thread nD τ).loc main_arg0)) (m ((c : Thread nD τ).loc main_arg3))) := by
  show (cfg0.win 2).cut (grid0.coords t) ((dat0 (entry0 m) c).after 2 t) = _
  rw [dat0_after2]
  funext y
  obtain ⟨p, q, rfl⟩ : ∃ (p : Fin 4096) (q : Fin 64), y = ix2 p q := ⟨y 0, y 1, eq_ix2 y⟩
  have hk : 4096 * t.val + p.val < 16384 := by
    have ht : t.val < 4 := t.isLt
    have hp : p.val < 4096 := p.isLt
    omega
  rw [xwRows_read _ t p q ⟨4096 * t.val + p.val, hk⟩ rfl, Cert.AggSpec.xwSpec_ix2]
  show xwBlock (entry0 m) c t (ix2 p q) = _
  unfold xwBlock
  refine (xw_pay_apply _ _ p q).trans ?_
  unfold Cert.AggSpec.xwAt
  refine Finset.sum_congr rfl fun j _ => ?_
  rw [xRows_apply (entry0 m) c t p j ⟨4096 * t.val + p.val, hk⟩ rfl, wWhole_apply (entry0 m) c t j q, entry0_X, entry0_W]

end Flow

/-- An entry of XW's array is in point `t`'s block iff its row is one of the block's 4096 and its column one of the 64. -/
private theorem xw_mem_blk (t : Fin cfg0.N) (i : S16384x64.Idx) :
    i ∈ ((cfg0.win 2).blk t).view.set
      ↔ ∀ a : Fin 2, win0_2.index t a * S4096x64.size a ≤ (i a).val ∧ (i a).val < win0_2.index t a * S4096x64.size a + S4096x64.size a := by
  show i ∈ ((View.whole main_v1).slice (win0_2.rect t)).set ↔ _
  rw [View.set_slice_whole, Rect.mem_set_unit]
  exact Iff.rfl

/-- Every entry of XW's array is written back by some point: row `r` by point `r / 4096`. -/
private theorem xw_cover (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  have ht : (i 0).val / 4096 < 4 := by omega
  refine ⟨⟨(i 0).val / 4096, ht⟩, Gen.flush0_2 _, ?_⟩
  obtain ⟨-, -, -, -, e4, e5⟩ := blockIdx0 ⟨(i 0).val / 4096, ht⟩
  rw [xw_mem_blk]
  intro a
  match a with
  | ⟨0, _⟩ =>
    show win0_2.index ⟨(i 0).val / 4096, ht⟩ (0 : Fin 2) * 4096 ≤ (i 0).val ∧ (i 0).val < win0_2.index ⟨(i 0).val / 4096, ht⟩ (0 : Fin 2) * 4096 + 4096
    rw [e4]; show (i 0).val / 4096 * 4096 ≤ (i 0).val ∧ (i 0).val < (i 0).val / 4096 * 4096 + 4096; omega
  | ⟨1, _⟩ =>
    show win0_2.index ⟨(i 0).val / 4096, ht⟩ (1 : Fin 2) * 64 ≤ (i 1).val ∧ (i 1).val < win0_2.index ⟨(i 0).val / 4096, ht⟩ (1 : Fin 2) * 64 + 64
    rw [e5]; omega

/-- Region 0 leaves X · W in its output array. -/
theorem xwArr_eq (m : (ℓ : Loc nD τ sig) → Buf (Elt Ideal) ℓ) (c : Dev nD) :
    xwArr (F := Ideal) m c
      = Cert.AggSpec.xwSpec (m ((c : Thread nD τ).loc main_arg0)) (m ((c : Thread nD τ).loc main_arg3)) :=
  (dat0 (entry0 m) c).arrAt_eq_of_cover 2 _ (fun t _ => xwFlushed m c t) xw_cover

end Cert.KernelIdeal.Agg

end
-- ==== Proof.AggValue.lean ====
/-
  The result array as region 1 leaves it. Along a row block's 8 column blocks the scratch accumulates
  Σ_{k < 2048·(j+1)} A[r, k] · XW[k, s]; at the last one the sum over all 16384 columns is combined with `w` and X and
  written back. The 16 row blocks tile the array.
-/
import proofs.«163471_j56341380989595_1_alg».proof.Proof.AggFlow
import proofs.«163471_j56341380989595_1_alg».proof.Proof.AggSpec
import proofs.«163471_j56341380989595_1_alg».proof.Proof.AggPayload
import proofs.«163471_j56341380989595_1_alg».proof.Proof.XwValue

set_option maxRecDepth 16384

noncomputable section

namespace Cert.KernelIdeal.Agg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## What region 1 is entered with -/

section Entry

variable (m : (ℓ : Loc nD τ sig) → Buf (Elt Ideal) ℓ)

/-- The adjacency matrix is as launched: neither the reshape nor region 0 writes it. -/
theorem entry_adj (c : Dev nD) : entry1 m c main_arg1 = m ((c : Thread nD τ).loc main_arg1) :=
  (Gen.V2_of m (outs0 m) c main_arg1 (by decide)).trans ((Gen.V1_of m c main_arg1 (by decide)).trans rfl)

/-- X is as launched. -/
theorem entry_feat (c : Dev nD) : entry1 m c main_arg0 = m ((c : Thread nD τ).loc main_arg0) :=
  (Gen.V2_of m (outs0 m) c main_arg0 (by decide)).trans ((Gen.V1_of m c main_arg0 (by decide)).trans rfl)

/-- XW's buffer holds what region 0 left in it. -/
theorem entry_xw (c : Dev nD) : entry1 m c main_v1 = xwArr m c := by
  show Function.update (Gen.V1 m c) main_v1 (outs0 m 2 main_v1 c) main_v1 = _
  rw [Function.update_self, outs0_xw]

/-- The column the host reshaped `w` into reads `w` row by row. -/
theorem entry_col (c : Dev nD) (r : Fin 16384) :
    (entry1 m c main_v0 : S16384x1.Idx → EReal) (ix2 r 0) = m ((c : Thread nD τ).loc main_arg2) (ix1 r) := by
  have e : (entry1 m c main_v0 : S16384x1.Idx → EReal)
      = shapeCast S16384x1 (m ((c : Thread nD τ).loc main_arg2)) shapeCasts_S16384_S16384x1 := by
    refine (Gen.V2_of m (outs0 m) c main_v0 (by decide)).trans ?_
    show StableHlo.after hostOps0 (fun b => m (c, b)) (Proc.devRef .tc main_v0) = _
    after_results
    rfl
  rw [e]
  refine shapeCast_apply _ _ (ix2 r 0) (ix1 r) ?_
  rw [Shape.rowMajor_val_two, Shape.rowMajor_val_one]
  show r.val = r.val * 1 + 0
  omega

end Entry

/-! ## A block of region 1 read at explicit coordinates -/

section Blocks

variable {F : FTy → Type} [FloatOps F]
variable (V : (c : Dev nD) → (b : Ref sig .tc) → Buf (Elt F) ((c : Thread nD τ).loc b))

/-- The four arrays region 1 reads, as it finds them, and its four input blocks at a point, each at its literal type. -/
abbrev adjArr (c : Dev nD) : Vec F S16384x16384 .f32 := V c main_arg1
abbrev xwIn (c : Dev nD) : Vec F S16384x64 .bf16 := V c main_v1
abbrev colArr (c : Dev nD) : Vec F S16384x1 .f32 := V c main_v0
abbrev featArr (c : Dev nD) : Vec F S16384x64 .f32 := V c main_arg0
abbrev adjBlk (c : Dev nD) (t : Fin cfg1.N) : Vec F S1024x2048 .f32 := blk1 V c 0 t
abbrev xwBlk (c : Dev nD) (t : Fin cfg1.N) : Vec F S2048x64 .bf16 := blk1 V c 1 t
abbrev colBlk (c : Dev nD) (t : Fin cfg1.N) : Vec F S1024x1 .f32 := blk1 V c 2 t
abbrev featBlk (c : Dev nD) (t : Fin cfg1.N) : Vec F S1024x64 .f32 := blk1 V c 3 t

/-- The printed index maps over the grid: point `t = 8·i + k` is at row block `i = t / 8` and column block `k = t % 8`;
    the adjacency window moves with both, XW's with the column block, the three row windows with the row block. -/
theorem index_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0 :=
  (by decide +kernel : ∀ t : Fin grid1.N, _)

/-- The adjacency block at point `t`: rows from `1024·(t/8)`, columns from `2048·(t%8)`. -/
theorem adjBlk_apply (c : Dev nD) (t : Fin cfg1.N) (p : Fin 1024) (k : Fin 2048) (r kk : Fin 16384)
    (hr : r.val = 1024 * (t.val / 8) + p.val) (hk : kk.val = 2048 * (t.val % 8) + k.val) :
    adjBlk V c t (ix2 p k) = adjArr V c (ix2 r kk) := by
  show V c main_arg1 (((cfg1.win 0).blk t).view.emb (ix2 p k)) = V c main_arg1 (ix2 r kk)
  refine congrArg _ (funext fun a => Fin.ext ?_)
  obtain ⟨e0, e1, -⟩ := index_facts t
  match a with
  | ⟨0, _⟩ => show win1_0.index t (0 : Fin 2) * 1024 + 1 * p.val = r.val; omega
  | ⟨1, _⟩ => show win1_0.index t (1 : Fin 2) * 2048 + 1 * k.val = kk.val; omega

/-- XW's block at point `t`: rows from `2048·(t%8)`, all 64 columns. -/
theorem xwBlk_apply (c : Dev nD) (t : Fin cfg1.N) (k : Fin 2048) (q : Fin 64) (kk : Fin 16384)
    (hk : kk.val = 2048 * (t.val % 8) + k.val) :
    xwBlk V c t (ix2 k q) = xwIn V c (ix2 kk q) := by
  show V c main_v1 (((cfg1.win 1).blk t).view.emb (ix2 k q)) = V c main_v1 (ix2 kk q)
  refine congrArg _ (funext fun a => Fin.ext ?_)
  obtain ⟨-, -, e0, e1, -⟩ := index_facts t
  match a with
  | ⟨0, _⟩ => show win1_1.index t (0 : Fin 2) * 2048 + 1 * k.val = kk.val; omega
  | ⟨1, _⟩ => show win1_1.index t (1 : Fin 2) * 64 + 1 * q.val = q.val; omega

/-- The block of the column of `w` at point `t`: rows from `1024·(t/8)`. -/
theorem colBlk_apply (c : Dev nD) (t : Fin cfg1.N) (p : Fin 1024) (r : Fin 16384)
    (hr : r.val = 1024 * (t.val / 8) + p.val) :
    colBlk V c t (ix2 p 0) = colArr V c (ix2 r 0) := by
  show V c main_v0 (((cfg1.win 2).blk t).view.emb (ix2 p 0)) = V c main_v0 (ix2 r 0)
  refine congrArg _ (funext fun a => Fin.ext ?_)
  obtain ⟨-, -, -, -, e0, e1, -⟩ := index_facts t
  match a with
  | ⟨0, _⟩ => show win1_2.index t (0 : Fin 2) * 1024 + 1 * p.val = r.val; omega
  | ⟨1, _⟩ => show win1_2.index t (1 : Fin 2) * 1 + 1 * 0 = 0; omega

/-- X's block at point `t`: rows from `1024·(t/8)`, all 64 columns. -/
theorem featBlk_apply (c : Dev nD) (t : Fin cfg1.N) (p : Fin 1024) (q : Fin 64) (r : Fin 16384)
    (hr : r.val = 1024 * (t.val / 8) + p.val) :
    featBlk V c t (ix2 p q) = featArr V c (ix2 r q) := by
  show V c main_arg0 (((cfg1.win 3).blk t).view.emb (ix2 p q)) = V c main_arg0 (ix2 r q)
  refine congrArg _ (funext fun a => Fin.ext ?_)
  obtain ⟨-, -, -, -, -, -, e0, e1, -⟩ := index_facts t
  match a with
  | ⟨0, _⟩ => show win1_3.index t (0 : Fin 2) * 1024 + 1 * p.val = r.val; omega
  | ⟨1, _⟩ => show win1_3.index t (1 : Fin 2) * 64 + 1 * q.val = q.val; omega

end Blocks

/-! ## The running sum in closed form -/

section Sum

variable (V : (c : Dev nD) → (b : Ref sig .tc) → Buf (Elt Ideal) ((c : Thread nD τ).loc b))

/-- Column `kk`'s term of the aggregate at row `r` and column `q`, over the arrays region 1 finds: `A[r, kk] · XW[kk, q]`,
    and zero past the last column. -/
def aggTerm (c : Dev nD) (r : Fin 16384) (q : Fin 64) (kk : ℕ) : EReal :=
  if h : kk < 16384 then adjArr V c (ix2 r ⟨kk, h⟩) * xwIn V c (ix2 ⟨kk, h⟩ q) else 0

/-- The product of the two blocks of point `t` at an entry: the terms of the 2048 columns from `2048·(t%8)` on. -/
theorem blockProd (c : Dev nD) (t : Fin cfg1.N) (p : Fin 1024) (q : Fin 64) (r : Fin 16384)
    (hr : r.val = 1024 * (t.val / 8) + p.val) :
    ∑ k : Fin 2048, (adjBlk V c t (ix2 p k) : EReal) * (xwBlk V c t (ix2 k q) : EReal)
      = ∑ j ∈ Finset.range 2048, aggTerm V c r q (2048 * (t.val % 8) + j) := by
  rw [Finset.sum_range]
  refine Finset.sum_congr rfl fun k _ => ?_
  have hlt : 2048 * (t.val % 8) + k.val < 16384 := by have := k.isLt; omega
  unfold aggTerm
  rw [dif_pos hlt]
  exact congrArg₂ (· * ·) (adjBlk_apply V c t p k r ⟨_, hlt⟩ hr rfl) (xwBlk_apply V c t k q ⟨_, hlt⟩ rfl)

/-- THE RUNNING SUM after point `n = 8·i + k`, at an entry of row `r = 1024·i + p`: the terms of the columns below
    `2048·(k + 1)`. By induction on the point: a first column block starts from zero, a later one adds its 2048 terms to
    what the point before left. -/
theorem accAt_apply (c : Dev nD) : ∀ (n : ℕ) (hn : n < cfg1.N) (p : Fin 1024) (q : Fin 64) (r : Fin 16384),
    r.val = 1024 * (n / 8) + p.val →
    (accAt V c n hn (ix2 p q) : EReal) = ∑ kk ∈ Finset.range (2048 * (n % 8 + 1)), aggTerm V c r q kk := by
  intro n
  induction n with
  | zero =>
    intro hn p q r hr
    refine (congrFun (accAt_first V c ⟨0, hn⟩ rfl) (ix2 p q)).trans ?_
    refine (acc_step_apply (adjBlk V c ⟨0, hn⟩) (k1_pay1 (F := Ideal)) (xwBlk V c ⟨0, hn⟩) p q).trans ?_
    rw [acc_zero_apply p q, zero_add, blockProd V c ⟨0, hn⟩ p q r hr]
    refine Finset.sum_congr rfl fun j _ => ?_
    show aggTerm V c r q (2048 * (0 % 8) + j) = _
    rw [Nat.zero_mod, Nat.mul_zero, Nat.zero_add]
  | succ n ih =>
    intro hn p q r hr
    by_cases h : (n + 1) % 8 = 0
    · refine (congrFun (accAt_first V c ⟨n + 1, hn⟩ h) (ix2 p q)).trans ?_
      refine (acc_step_apply (adjBlk V c ⟨n + 1, hn⟩) (k1_pay1 (F := Ideal)) (xwBlk V c ⟨n + 1, hn⟩) p q).trans ?_
      rw [acc_zero_apply p q, zero_add, blockProd V c ⟨n + 1, hn⟩ p q r hr]
      show ∑ j ∈ Finset.range 2048, aggTerm V c r q (2048 * ((n + 1) % 8) + j) = _
      rw [h]
      refine Finset.sum_congr rfl fun j _ => ?_
      rw [Nat.mul_zero, Nat.zero_add]
    · refine (congrFun (accAt_later V c ⟨n + 1, hn⟩ h) (ix2 p q)).trans ?_
      refine (acc_step_apply (adjBlk V c ⟨n + 1, hn⟩) (accAt V c n (Nat.lt_of_succ_lt hn)) (xwBlk V c ⟨n + 1, hn⟩) p q).trans ?_
      rw [ih (Nat.lt_of_succ_lt hn) p q r (by omega), blockProd V c ⟨n + 1, hn⟩ p q r hr]
      show _ + ∑ j ∈ Finset.range 2048, aggTerm V c r q (2048 * ((n + 1) % 8) + j) = _
      have e : n % 8 + 1 = (n + 1) % 8 := by omega
      rw [e, Nat.mul_add 2048 ((n + 1) % 8) 1, Nat.mul_one, Finset.sum_range_add]

/-- At a last column block the running sum is the whole row's: all 16384 columns. -/
theorem accAt_last (c : Dev nD) (t : Fin cfg1.N) (h7 : t.val % 8 = 7) (p : Fin 1024) (q : Fin 64) (r : Fin 16384)
    (hr : r.val = 1024 * (t.val / 8) + p.val) :
    (accAt V c t.val t.isLt (ix2 p q) : EReal) = ∑ kk : Fin 16384, adjArr V c (ix2 r kk) * xwIn V c (ix2 kk q) := by
  rw [accAt_apply V c t.val t.isLt p q r hr, h7, show 2048 * (7 + 1) = 16384 from rfl, Finset.sum_range]
  refine Finset.sum_congr rfl fun kk _ => ?_
  unfold aggTerm
  rw [dif_pos kk.isLt]

end Sum

/-! ## The output block, and the array the blocks tile -/

section Out

variable (m : (ℓ : Loc nD τ sig) → Buf (Elt Ideal) ℓ)

/-- The arrays region 1 finds, in the launch memory's terms: the adjacency matrix and X as launched, XW as the
    specification's product, the column of `w` read row by row. -/
theorem adjArr_entry (c : Dev nD) : adjArr (entry1 m) c = m ((c : Thread nD τ).loc main_arg1) := entry_adj m c
theorem featArr_entry (c : Dev nD) : featArr (entry1 m) c = m ((c : Thread nD τ).loc main_arg0) := entry_feat m c
theorem xwIn_entry (c : Dev nD) :
    xwIn (entry1 m) c = Cert.AggSpec.xwSpec (m ((c : Thread nD τ).loc main_arg0)) (m ((c : Thread nD τ).loc main_arg3)) :=
  (entry_xw m c).trans (xwArr_eq m c)
theorem colArr_entry (c : Dev nD) (r : Fin 16384) :
    colArr (entry1 m) c (ix2 r 0) = m ((c : Thread nD τ).loc main_arg2) (ix1 r) := entry_col m c r

/-- THE OUTPUT BLOCK of a point at the last column block, at an entry of row `r = 1024·(t/8) + p`: the layer's output there. -/
theorem outBlock_apply (c : Dev nD) (t : Fin cfg1.N) (h7 : t.val % 8 = 7) (p : Fin 1024) (q : Fin 64) (r : Fin 16384)
    (hr : r.val = 1024 * (t.val / 8) + p.val) :
    (outBlock (entry1 m) c t (ix2 p q) : EReal)
      = Cert.AggSpec.outAt (m ((c : Thread nD τ).loc main_arg0)) (m ((c : Thread nD τ).loc main_arg1))
          (m ((c : Thread nD τ).loc main_arg2)) (m ((c : Thread nD τ).loc main_arg3)) r q := by
  refine (out_pay_apply (accAt (entry1 m) c t.val t.isLt) (colBlk (entry1 m) c t) (featBlk (entry1 m) c t) p q).trans ?_
  rw [accAt_last (entry1 m) c t h7 p q r hr, colBlk_apply (entry1 m) c t p r hr, featBlk_apply (entry1 m) c t p q r hr]
  rw [colArr_entry m c r, featArr_entry m c, adjArr_entry m c, xwIn_entry m c]
  rfl

/-- WHAT A POINT AT THE LAST COLUMN BLOCK WRITES BACK is its block of the layer's output. -/
theorem flushed_out (c : Dev nD) (t : Fin cfg1.N) (hf : (cfg1.win 4).flush t = true) :
    (dat1 (entry1 m) c).flushed 4 t = ((cfg1.win 4).blk t).view.read (Elt Ideal)
      (Cert.AggSpec.outSpec (m ((c : Thread nD τ).loc main_arg0)) (m ((c : Thread nD τ).loc main_arg1))
        (m ((c : Thread nD τ).loc main_arg2)) (m ((c : Thread nD τ).loc main_arg3))) := by
  have h7 : t.val % 8 = 7 := (Gen.flush1_4 t).mp hf
  have hN : cfg1.N = 128 := N_1
  show (cfg1.win 4).cut (grid1.coords t) ((dat1 (entry1 m) c).after 4 t) = _
  rw [dat1_after4]
  funext y
  obtain ⟨p, q, rfl⟩ : ∃ (p : Fin 1024) (q : Fin 64), y = ix2 p q := ⟨y 0, y 1, eq_ix2 y⟩
  have hlt : 1024 * (t.val / 8) + p.val < 16384 := by have := t.isLt; have := p.isLt; omega
  refine (outBlock_apply m c t h7 p q ⟨_, hlt⟩ rfl).trans ?_
  refine (Cert.AggSpec.outSpec_ix2 _ _ _ _ ⟨_, hlt⟩ q).symm.trans ?_
  show Cert.AggSpec.outSpec _ _ _ _ (ix2 ⟨_, hlt⟩ q) = Cert.AggSpec.outSpec _ _ _ _ (((cfg1.win 4).blk t).view.emb (ix2 p q))
  refine congrArg _ (funext fun a => Fin.ext ?_)
  obtain ⟨-, -, -, -, -, -, -, -, e0, e1⟩ := index_facts t
  match a with
  | ⟨0, _⟩ => show 1024 * (t.val / 8) + p.val = win1_4.index t (0 : Fin 2) * 1024 + 1 * p.val; omega
  | ⟨1, _⟩ => show q.val = win1_4.index t (1 : Fin 2) * 64 + 1 * q.val; omega

/-- An index of the output array is in point `t`'s block iff each coordinate is in the block's range on its axis. -/
theorem mem_outBlk (t : Fin cfg1.N) (i : S16384x64.Idx) :
    i ∈ ((cfg1.win 4).blk t).view.set
      ↔ ∀ a : Fin 2, win1_4.index t a * S1024x64.size a ≤ (i a).val ∧ (i a).val < win1_4.index t a * S1024x64.size a + S1024x64.size a := by
  show i ∈ ((View.whole main_v2).slice (win1_4.rect t)).set ↔ _
  rw [View.set_slice_whole, Rect.mem_set_unit]
  exact Iff.rfl

end Out

/-- Region 1 leaves the layer's output in its output array. -/
theorem outArr_eq (m : (ℓ : Loc nD τ sig) → Buf (Elt Ideal) ℓ) (c : Dev nD) :
    outArr (F := Ideal) m c
      = Cert.AggSpec.outSpec (m ((c : Thread nD τ).loc main_arg0)) (m ((c : Thread nD τ).loc main_arg1))
          (m ((c : Thread nD τ).loc main_arg2)) (m ((c : Thread nD τ).loc main_arg3)) := by
  refine (dat1 (entry1 m) c).arrAt_eq_of_cover 4 _ (fun t hf => flushed_out m c t hf) fun i => ?_
  have hN : cfg1.N = 128 := N_1
  have hi0 : (i 0).val < 16384 := (i 0).isLt
  have hi1 : (i 1).val < 64 := (i 1).isLt
  obtain ⟨t, ht⟩ : ∃ t : Fin cfg1.N, t.val = 8 * ((i 0).val / 1024) + 7 := ⟨⟨_, by omega⟩, rfl⟩
  refine ⟨t, (Gen.flush1_4 t).mpr (by omega), ?_⟩
  rw [mem_outBlk]
  obtain ⟨-, -, -, -, -, -, -, -, e0, e1⟩ := index_facts t
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 64 ≤ (i 1).val ∧ (i 1).val < win1_4.index t (1 : Fin 2) * 64 + 64; omega

end Cert.KernelIdeal.Agg

end
-- ==== Proof.RefSide.lean ====
/-
  The reference program's result, stage by stage, is the layer's output entry by entry: two matrix products as sums,
  the rectification as a maximum with zero, and the two row-wise weightings as products with `w` and `1 − w` broadcast
  along the feature axis.
-/
import proofs.«163471_j56341380989595_1_alg».proof.Proof.Gen.ReferenceIdeal.Read
import proofs.«163471_j56341380989595_1_alg».proof.Proof.AggSpec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-! ## The generated index functions at an index given by its coordinates

Each index function of the reference's operations, at the index `ix2 r s` (row `r`, feature `s`), is again an index given
by its coordinates: the products read row against column, and the two broadcasts along the feature axis read the
row's entry of the weight vector. -/

/-- The first product X · W reads X at row `k`, column `j`. -/
private theorem lidx_xw (k : Fin 16384) (s : Fin 64) (j : Fin 64) :
    lidx_main_v0 (ix2 k s) j = ix2 k j :=
  funext fun a => Fin.ext (by match a with | ⟨0, _⟩ => rfl | ⟨1, _⟩ => rfl)

/-- The first product X · W reads W at row `j`, column `s`. -/
private theorem ridx_xw (k : Fin 16384) (s : Fin 64) (j : Fin 64) :
    ridx_main_v0 (ix2 k s) j = ix2 j s :=
  funext fun a => Fin.ext (by match a with | ⟨0, _⟩ => rfl | ⟨1, _⟩ => rfl)

/-- The second product A · (X · W) reads A at row `r`, column `k`. -/
private theorem lidx_agg (r : Fin 16384) (s : Fin 64) (k : Fin 16384) :
    lidx_main_v1 (ix2 r s) k = ix2 r k :=
  funext fun a => Fin.ext (by match a with | ⟨0, _⟩ => rfl | ⟨1, _⟩ => rfl)

/-- The second product A · (X · W) reads X · W at row `k`, column `s`. -/
private theorem ridx_agg (r : Fin 16384) (s : Fin 64) (k : Fin 16384) :
    ridx_main_v1 (ix2 r s) k = ix2 k s :=
  funext fun a => Fin.ext (by match a with | ⟨0, _⟩ => rfl | ⟨1, _⟩ => rfl)

/-- The weight vector `w`, made a column and spread along the feature axis, is read at row `r`. -/
private theorem idx_w (r : Fin 16384) (s : Fin 64) :
    idx_main_v2 (idx_main_v4 (ix2 r s)) = ix1 r :=
  funext fun a => Fin.ext (by match a with | ⟨0, _⟩ => rfl)

/-- The vector `1 − w`, made a column and spread along the feature axis, is read at row `r`. -/
private theorem idx_one_sub_w (r : Fin 16384) (s : Fin 64) :
    idx_main_v8 (idx_main_v9 (ix2 r s)) = ix1 r :=
  funext fun a => Fin.ext (by match a with | ⟨0, _⟩ => rfl)

/-- The reference's last stage is the specification. -/
theorem ref_eq (x0 : (⟨S16384x64, .f32⟩ : BufTy).Contents (Elt Ideal)) (x1 : (⟨S16384x16384, .f32⟩ : BufTy).Contents (Elt Ideal))
    (x2 : (⟨S16384, .f32⟩ : BufTy).Contents (Elt Ideal)) (x3 : (⟨S64x64, .f32⟩ : BufTy).Contents (Elt Ideal)) :
    val_main_v11 (F := Ideal) x0 x1 x2 x3 = Cert.AggSpec.outSpec x0 x1 x2 x3 := by
  funext i
  obtain ⟨r, s, rfl⟩ : ∃ (r : Fin 16384) (s : Fin 64), i = ix2 r s := ⟨i 0, i 1, eq_ix2 i⟩
  -- the sum of the two weighted terms, each read down to the arguments
  rw [val_main_v11_apply, val_main_v5_apply, val_main_v4_apply, val_main_v2_apply, val_main_v3_apply, val_main_v1_apply,
    val_main_call0_v0_apply, val_main_call0_cst_apply, val_main_v10_apply, val_main_v9_apply, val_main_v8_apply,
    val_main_v7_apply, val_main_v6_apply, val_main_cst_apply]
  -- the inner product under the outer sum, the index functions by coordinates, and the operations on the extended reals
  simp only [val_main_v0_apply, lidx_xw, ridx_xw, lidx_agg, ridx_agg, idx_w, idx_one_sub_w, Ideal.ofBits_def,
    Ideal.addf_def, Ideal.subf_def, Ideal.mulf_def, Ideal.maximumf_def]
  rfl

end Cert.ReferenceIdeal.RefValue

end
-- ==== Proof.lean ====
/-
  The graph-aggregation layer  out = w · max(A · (X · W), 0) + (1 − w) · X  (w applied row by row), as a kernel program of
  two pipelined regions against a plain reference.

  The kernel program first forms XW = X · W in row blocks; its second region walks the adjacency matrix A in
  1024 × 2048 blocks, accumulating each row block's products with the matching rows of XW in a scratch buffer over the 8
  column blocks, and at the last of them combines the finished sum with w and X. On the extended reals a change of float
  format is the identity and a sum may be grouped in any way, so the accumulated block sums are the one sum over all 16384
  columns, and both programs compute the same entries: the specification (Proof/AggSpec.lean).

  Frames: each kernel region's body is run symbolically at a generic grid point (Proof/XwBody.lean, Proof/AggBody.lean,
  Proof/AggOblig.lean) and the regions are chained through @main (Proof/AggRun.lean); the word-level program is the same
  text in another namespace (Proof/Word/). Values: the two output arrays in closed form (Proof/XwValue.lean,
  Proof/AggValue.lean over Proof/AggPayload.lean) and the reference's stages (Proof/RefSide.lean).
-/
import proofs.«163471_j56341380989595_1_alg».proof.Defs
import proofs.«163471_j56341380989595_1_alg».proof.Proof.Gen.Kernel
import proofs.«163471_j56341380989595_1_alg».proof.Proof.Gen.KernelIdeal
import proofs.«163471_j56341380989595_1_alg».proof.Proof.Gen.ReferenceIdeal
import proofs.«163471_j56341380989595_1_alg».proof.Proof.Gen.Pre_finite_inputs
import proofs.«163471_j56341380989595_1_alg».proof.Proof.Gen.ReferenceIdeal.Run
import proofs.«163471_j56341380989595_1_alg».proof.Proof.Gen.ReferenceIdeal.Read
import proofs.«163471_j56341380989595_1_alg».proof.Proof.AggRun
import proofs.«163471_j56341380989595_1_alg».proof.Proof.Word.AggRun
import proofs.«163471_j56341380989595_1_alg».proof.Proof.AggValue
import proofs.«163471_j56341380989595_1_alg».proof.Proof.RefSide

noncomputable section

namespace Cert.Proof

open Idealize.ShloMosaic Idealize.SL.Sem

/-- The word-level program runs to the end and leaves its arguments as launched. -/
theorem frame_k : Cert.frame_Kernel := fun m ρ _ => Cert.Kernel.Agg.frame (F := Bits) m ρ

/-- So does its idealization. -/
theorem frame_ki : Cert.frame_KernelIdeal := fun m ρ _ => Cert.KernelIdeal.Agg.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the specification's array in their result buffer: the kernel program by the closed form of
    region 1's output array, the reference by its stages read entry by entry, the arguments agreeing. -/
theorem algebraic : Cert.algebraic_KernelIdeal_ReferenceIdeal := by
  intro m ρ m' ρ' _ hagree
  refine ⟨fun c => Cert.KernelIdeal.Agg.outArr (F := Ideal) m c, Cert.KernelIdeal.Agg.run_valued (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq,
    (hagree c).1, (hagree c).2.1, (hagree c).2.2.1, (hagree c).2.2.2]
  exact (Cert.KernelIdeal.Agg.outArr_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
